-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S32x4096x1024 : Shape := ⟨3, ![32, 4096, 1024]⟩
abbrev S32 : Shape := ⟨1, ![32]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S32x4096x1024 : S_.BroadcastsInDim S32x4096x1024 (![] : Fin 0 → Fin S32x4096x1024.rank)
  reducesTo_S32x4096x1024_S_d0_1_2 : S32x4096x1024.ReducesTo [0, 1, 2] S_
  bcast_S_S32 : S_.BroadcastsInDim S32 (![] : Fin 0 → Fin S32.rank)
  reducesTo_S32_S_d0 : S32.ReducesTo [0] S_

variable [Facts]

def fn {F : FTy → Type} [FloatOps F] (main_arg0 : FVec F S32x1024x1024 .f32) (main_arg1 : FVec F S32x4096x1024 .f32) (main_arg2 : IVec S32 32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x4096x1024 .f32 := Host.absf main_arg1
  let main_cst_0 : FVec F S_ .f32 := constant S_ .f32 0x7F800000#32
  let main_v5 : FVec F S32x4096x1024 .f32 := broadcastInDim S32x4096x1024 ![] bcast_S_S32x4096x1024 main_cst_0
  let main_v6 : IVec S32x4096x1024 1 := cmpf .olt main_v4 main_v5
  let main_c_1 : IVec S_ 1 := constantI S_ 1 1#1
  let main_v7 : IVec S_ 1 := (fun x v => Host.reduce IntOp.andi x v reducesTo_S32x4096x1024_S_d0_1_2 h_S_) main_v6 main_c_1
  let main_v8 : IVec S_ 1 := andi main_v3 main_v7
  let main_c_2 : IVec S_ 32 := constantI S_ 32 1#32
  let main_v9 : IVec S32 32 := broadcastInDim S32 ![] bcast_S_S32 main_c_2
  let main_v10 : IVec S32 1 := cmpi .sge main_arg2 main_v9
  let main_c_3 : IVec S_ 1 := constantI S_ 1 1#1
  let main_v11 : IVec S_ 1 := (fun x v => Host.reduce IntOp.andi x v reducesTo_S32_S_d0 h_S_) main_v10 main_c_3
  let main_v12 : IVec S_ 1 := andi main_v8 main_v11
  main_v12
-- ==== Kernel.lean ====
abbrev S32x1024x1024 : Shape := ⟨3, ![32, 1024, 1024]⟩
abbrev S32x4096x1024 : Shape := ⟨3, ![32, 4096, 1024]⟩
abbrev S32 : Shape := ⟨1, ![32]⟩
abbrev S_ : Shape := ⟨0, ![]⟩
abbrev S1024x32768 : Shape := ⟨2, ![1024, 32768]⟩
abbrev S1024x131072 : Shape := ⟨2, ![1024, 131072]⟩
abbrev S1x256x1024 : Shape := ⟨3, ![1, 256, 1024]⟩
abbrev S1x4096x1024 : Shape := ⟨3, ![1, 4096, 1024]⟩
abbrev S256x1024 : Shape := ⟨2, ![256, 1024]⟩
abbrev S256x4096 : Shape := ⟨2, ![256, 4096]⟩
abbrev S1 : Shape := ⟨1, ![1]⟩
abbrev S4096x1024 : Shape := ⟨2, ![4096, 1024]⟩
abbrev S256 : Shape := ⟨1, ![256]⟩
abbrev S256x1 : Shape := ⟨2, ![256, 1]⟩
abbrev S1024x32x1024 : Shape := ⟨3, ![1024, 32, 1024]⟩
abbrev S1024x32x4096 : Shape := ⟨3, ![1024, 32, 4096]⟩

abbrev nBuf : Space → Nat
  | .hbm => 16
  | .vmem => 8
  | .smem => 1
  | _ => 0

abbrev bufTy : (tb : Table) → Fin (tcTables nBuf tb) → BufTy
  | .hbm, ⟨0, _⟩ => ⟨S32x1024x1024, .f32⟩
  | .hbm, ⟨1, _⟩ => ⟨S32x4096x1024, .f32⟩
  | .hbm, ⟨2, _⟩ => ⟨S32, .i32⟩
  | .hbm, ⟨3, _⟩ => ⟨S32x1024x1024, .bf16⟩
  | .hbm, ⟨4, _⟩ => ⟨S32x4096x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S32, .i32⟩
  | .hbm, ⟨12, _⟩ => ⟨S1024x32768, .f32⟩
  | .hbm, ⟨13, _⟩ => ⟨S1024x131072, .f32⟩
  | .hbm, ⟨14, _⟩ => ⟨S1024x32x1024, .f32⟩
  | .hbm, ⟨15, _⟩ => ⟨S1024x32x4096, .f32⟩
  | .local _ .vmem, ⟨0, _⟩ => ⟨S1x256x1024, .bf16⟩
  | .local _ .vmem, ⟨1, _⟩ => ⟨S1x256x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S256x1024, .f32⟩
  | .local _ .vmem, ⟨5, _⟩ => ⟨S256x1024, .f32⟩
  | .local _ .vmem, ⟨6, _⟩ => ⟨S256x4096, .f32⟩
  | .local _ .vmem, ⟨7, _⟩ => ⟨S256x4096, .f32⟩
  | .local _ .smem, ⟨0, _⟩ => ⟨S32, .i32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3_0 : Ref sig .tc := ⟨.hbm, 12, rfl⟩
abbrev main_v3_1 : Ref sig .tc := ⟨.hbm, 13, rfl⟩
abbrev main_v4 : Ref sig .tc := ⟨.hbm, 14, rfl⟩
abbrev main_v5 : Ref sig .tc := ⟨.hbm, 15, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  bcast_S_S32 : S_.BroadcastsInDim S32 (![] : Fin 0 → Fin S32.rank)
  numel1_S1 : S1.numel = 1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  iota_S256x4096_d1_w32 : S256x4096.Iotas .tc 32 [1]
  reduces_S256x4096_S256 : S256x4096.Reduces [1] S256
  shapeCasts_S256_S256x1 : S256.ShapeCasts S256x1
  broadcasts_S256x1_S256x4096 : S256x1.Broadcasts S256x4096
  inb_S256x4096_S256x4096_0_0 : ∀ a, (![0, 0] : Fin 2 → Nat) a + S256x4096.size a ≤ S256x4096.size a
  h_S256x4096 : 0 < S256x4096.numel
  inb_S256x1024_S256x1024_0_0 : ∀ a, (![0, 0] : Fin 2 → Nat) a + S256x1024.size a ≤ S256x1024.size a
  h_S256x1024 : 0 < S256x1024.numel
  shapeCasts_S1024x32768_S1024x32x1024 : S1024x32768.ShapeCasts S1024x32x1024
  shapeCasts_S1024x131072_S1024x32x4096 : S1024x131072.ShapeCasts S1024x32x4096
  dot_S256x1024_S4096x1024_S256x4096_1_1_0_0_n_n_wf : DotDims.WF S256x1024 S4096x1024 S256x4096 [1] [1] [0] [0] [] []
  dot_S256x4096_S4096x1024_S256x1024_1_0_0_1_n_n_wf : DotDims.WF S256x4096 S4096x1024 S256x1024 [1] [0] [0] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x1024x1024.size a
  hwx0_0 : ∀ i : grid0.Coords, EltTy.bits .bf16 = 32 ∨ (Rect.block (s := S32x1024x1024) S1x256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x1024.size a ≤ S32x4096x1024.size a
  hwx0_1 : ∀ i : grid0.Coords, EltTy.bits .bf16 = 32 ∨ (Rect.block (s := S32x4096x1024) S1x4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S1024x32768.size a
  hwx0_2 : ∀ i : grid0.Coords, EltTy.bits .f32 = 32 ∨ (Rect.block (s := S1024x32768) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S1024x131072.size a
  hwx0_3 : ∀ i : grid0.Coords, EltTy.bits .f32 = 32 ∨ (Rect.block (s := S1024x131072) S256x4096.size (cc0_transform_3 i) (hinb0_3 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev spec0_0 : Pipeline.WinSpec sig grid0.rank :=
  Pipeline.WinSpec.ofSpec (Memref.whole main_v0) S1x256x1024.size reads0_0 false false 2 stage0_0 sem0_0 nbuf0_0 hstage0_0

abbrev spec0_1 : Pipeline.WinSpec sig grid0.rank :=
  Pipeline.WinSpec.ofSpec (Memref.whole main_v1) S1x4096x1024.size reads0_1 false false 2 stage0_1 sem0_1 nbuf0_1 hstage0_1

abbrev spec0_2 : Pipeline.WinSpec sig grid0.rank :=
  Pipeline.WinSpec.ofSpec (Memref.whole main_v3_0) S256x1024.size reads0_2 true false 2 stage0_2 sem0_2 nbuf0_2 hstage0_2

abbrev spec0_3 : Pipeline.WinSpec sig grid0.rank :=
  Pipeline.WinSpec.ofSpec (Memref.whole main_v3_1) S256x4096.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S32x1024x1024 : Shape := ⟨3, ![32, 1024, 1024]⟩
abbrev S32x4096x1024 : Shape := ⟨3, ![32, 4096, 1024]⟩
abbrev S32 : Shape := ⟨1, ![32]⟩
abbrev S32x1024x4096 : Shape := ⟨3, ![32, 1024, 4096]⟩
abbrev S4096 : Shape := ⟨1, ![4096]⟩
abbrev S1x4096 : Shape := ⟨2, ![1, 4096]⟩
abbrev S32x1 : Shape := ⟨2, ![32, 1]⟩
abbrev S32x4096 : Shape := ⟨2, ![32, 4096]⟩
abbrev S32x1x4096 : Shape := ⟨3, ![32, 1, 4096]⟩
abbrev S_ : Shape := ⟨0, ![]⟩
abbrev S32x1024 : Shape := ⟨2, ![32, 1024]⟩
abbrev S32x1024x1 : Shape := ⟨3, ![32, 1024, 1]⟩
abbrev S1024x32x1024 : Shape := ⟨3, ![1024, 32, 1024]⟩
abbrev S1024x32x4096 : Shape := ⟨3, ![1024, 32, 4096]⟩

abbrev nBuf : Space → Nat
  | .hbm => 32
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x4096x1024, .f32⟩
  | .hbm, ⟨2, _⟩ => ⟨S32, .i32⟩
  | .hbm, ⟨3, _⟩ => ⟨S32x1024x4096, .f32⟩
  | .hbm, ⟨4, _⟩ => ⟨S4096, .i32⟩
  | .hbm, ⟨5, _⟩ => ⟨S1x4096, .i32⟩
  | .hbm, ⟨6, _⟩ => ⟨S32x1, .i32⟩
  | .hbm, ⟨7, _⟩ => ⟨S32x4096, .i32⟩
  | .hbm, ⟨8, _⟩ => ⟨S32x4096, .i32⟩
  | .hbm, ⟨9, _⟩ => ⟨S32x4096, .i1⟩
  | .hbm, ⟨10, _⟩ => ⟨S32x1x4096, .i1⟩
  | .hbm, ⟨11, _⟩ => ⟨S_, .f32⟩
  | .hbm, ⟨12, _⟩ => ⟨S32x1024x4096, .i1⟩
  | .hbm, ⟨13, _⟩ => ⟨S32x1024x4096, .f32⟩
  | .hbm, ⟨14, _⟩ => ⟨S32x1024x4096, .f32⟩
  | .hbm, ⟨15, _⟩ => ⟨S_, .f32⟩
  | .hbm, ⟨16, _⟩ => ⟨S32x1024, .f32⟩
  | .hbm, ⟨17, _⟩ => ⟨S_, .f32⟩
  | .hbm, ⟨18, _⟩ => ⟨S32x1024, .f32⟩
  | .hbm, ⟨19, _⟩ => ⟨S32x1024, .f32⟩
  | .hbm, ⟨20, _⟩ => ⟨S32x1024x1, .f32⟩
  | .hbm, ⟨21, _⟩ => ⟨S32x1024x4096, .f32⟩
  | .hbm, ⟨22, _⟩ => ⟨S32x1024x4096, .f32⟩
  | .hbm, ⟨23, _⟩ => ⟨S32x1024x4096, .f32⟩
  | .hbm, ⟨24, _⟩ => ⟨S_, .f32⟩
  | .hbm, ⟨25, _⟩ => ⟨S32x1024, .f32⟩
  | .hbm, ⟨26, _⟩ => ⟨S32x1024x1, .f32⟩
  | .hbm, ⟨27, _⟩ => ⟨S32x1024x4096, .f32⟩
  | .hbm, ⟨28, _⟩ => ⟨S32x1024x4096, .f32⟩
  | .hbm, ⟨29, _⟩ => ⟨S32x1024x1024, .f32⟩
  | .hbm, ⟨30, _⟩ => ⟨S1024x32x1024, .f32⟩
  | .hbm, ⟨31, _⟩ => ⟨S1024x32x4096, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S32_S32x1_0 : S32.BroadcastsInDim S32x1 (![0] : Fin 1 → Fin S32x1.rank)
  bcast_S1x4096_S32x4096_0_1 : S1x4096.BroadcastsInDim S32x4096 (![0, 1] : Fin 2 → Fin S32x4096.rank)
  bcast_S32x1_S32x4096_0_1 : S32x1.BroadcastsInDim S32x4096 (![0, 1] : Fin 2 → Fin S32x4096.rank)
  bcast_S32x4096_S32x1x4096_0_2 : S32x4096.BroadcastsInDim S32x1x4096 (![0, 2] : Fin 2 → Fin S32x1x4096.rank)
  bcast_S32x1x4096_S32x1024x4096_0_1_2 : S32x1x4096.BroadcastsInDim S32x1024x4096 (![0, 1, 2] : Fin 3 → Fin S32x1024x4096.rank)
  bcast_S_S32x1024x4096 : S_.BroadcastsInDim S32x1024x4096 (![] : Fin 0 → Fin S32x1024x4096.rank)
  reducesTo_S32x1024x4096_S32x1024_d2 : S32x1024x4096.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x4096_0_1_2 : S32x1024x1.BroadcastsInDim S32x1024x4096 (![0, 1, 2] : Fin 3 → Fin S32x1024x4096.rank)
  transposes_S32x1024x1024_S1024x32x1024_1_0_2 : S32x1024x1024.Transposes [1, 0, 2] S1024x32x1024
  transposes_S32x1024x4096_S1024x32x4096_1_0_2 : S32x1024x4096.Transposes [1, 0, 2] S1024x32x4096
  dot_S32x1024x1024_S32x4096x1024_S32x1024x4096_2_2_1_1_0_0_wf : DotDims.WF S32x1024x1024 S32x4096x1024 S32x1024x4096 [2] [2] [1] [1] [0] [0]
  dot_S32x1024x4096_S32x4096x1024_S32x1024x1024_2_1_1_2_0_0_wf : DotDims.WF S32x1024x4096 S32x4096x1024 S32x1024x1024 [2] [1] [1] [2] [0] [0]

variable [Facts₀]

def dot_S32x1024x1024_S32x4096x1024_S32x1024x4096_2_2_1_1_0_0 : DotDims S32x1024x1024 S32x4096x1024 S32x1024x4096 where
  lhsContracting := [2]
  rhsContracting := [2]
  lhsNonContracting := [1]
  rhsNonContracting := [1]
  lhsBatch := [0]
  rhsBatch := [0]
  wf := dot_S32x1024x1024_S32x4096x1024_S32x1024x4096_2_2_1_1_0_0_wf
def dot_S32x1024x4096_S32x4096x1024_S32x1024x1024_2_1_1_2_0_0 : DotDims S32x1024x4096 S32x4096x1024 S32x1024x1024 where
  lhsContracting := [2]
  rhsContracting := [1]
  lhsNonContracting := [1]
  rhsNonContracting := [2]
  lhsBatch := [0]
  rhsBatch := [0]
  wf := dot_S32x1024x4096_S32x4096x1024_S32x1024x1024_2_1_1_2_0_0_wf

class Facts : Prop extends Facts₀ where

variable [Facts]
-- ==== Proof.KPieces.lean ====
/- What one run of the kernel body leaves in its two output staging buffers: the body has one covering store per
   output, so each buffer ends holding that store's value — the probabilities, and their product with the context
   block — as a function of the length word of the point's batch and of the two input blocks it loaded whole. -/
import proofs.«430075_j74148315398602_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.Tactic

namespace Cert.KernelIdeal.KPieces

open Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The length word the body loads at grid point `i`: entry `i 0` (the batch) of the table of lengths. -/
theorem lenWord (c : Dev nD) (i : grid0.Coords) (xt0 : TbBuf0 (F := F) c tbM0_0) (h1 : 0 < S1.numel) :
    View.readAt (Elt F) tbM0_0.view (Rect.unit (s := S32) (k0_off1 i) S1.size (k0_off1_inb i)).toLoadRect xt0 (Shape.Idx.first h1)
      = xt0 (ValueIdx.ix1 (i 0)) := by
  refine congrArg xt0 (funext fun a => Fin.ext ?_)
  match a with
  | ⟨0, _⟩ =>
    show k0_off1 i 0 + 1 * (Shape.Idx.first h1 (0 : Fin 1)).val = (i 0).val
    have h0 : (Shape.Idx.first h1 (0 : Fin 1)).val = 0 := by
      have := (Shape.Idx.first h1 (0 : Fin 1)).isLt
      have e : S1.size (0 : Fin 1) = 1 := by decide
      omega
    have hk : k0_off1 i 0 = (i 0).val := by rw [k0_off1_eq i]; rfl
    rw [h0, hk]
    omega

/-- The probabilities' staging buffer after the body: the one covering store's value. -/
theorem out_align (c : Dev nD) (i : grid0.Coords) (arg3 : Memref sig .tc .vmem S1x256x1024 .bf16) (harg3 : arg3.IsWhole) (arg4 : Memref sig .tc .vmem S1x4096x1024 .bf16) (harg4 : arg4.IsWhole) (arg5 : Memref sig .tc .vmem S256x1024 .f32) (harg5 : arg5.IsWhole) (arg6 : Memref sig .tc .vmem S256x4096 .f32) (harg6 : arg6.IsWhole)
    (x0 : Vec F S1x256x1024 .bf16) (x1 : Vec F S1x4096x1024 .bf16) (xt0 : TbBuf0 (F := F) c tbM0_0) :
    out0_A_3 c i arg3 harg3 arg4 harg4 arg5 harg5 arg6 harg6 x0 x1 xt0 = k0_pay2 (xt0 (ValueIdx.ix1 (i 0))) x0 x1 := by
  unfold out0_A_3
  rw [View.read_writes_eq_canon _ _ _ (cover0_A_3 c i arg3 harg3 arg4 harg4 arg5 harg5 arg6 harg6 x0 x1 xt0)]
  unfold kernelRun0_A
  dsimp only
  rw [View.canon_unit_zero hz2]
  refine congr (congr (congrArg k0_pay2 (lenWord c i xt0 _)) ?_) ?_
  · rw [View.readAt_eq_ld, harg3.read_unread, View.ld_unit_zero (S := S1x256x1024) hz3]
  · rw [View.readAt_eq_ld, harg4.read_unread, View.ld_unit_zero (S := S1x4096x1024) hz3]

/-- The attended context's staging buffer after the body: the one covering store's value. -/
theorem out_ctx (c : Dev nD) (i : grid0.Coords) (arg3 : Memref sig .tc .vmem S1x256x1024 .bf16) (harg3 : arg3.IsWhole) (arg4 : Memref sig .tc .vmem S1x4096x1024 .bf16) (harg4 : arg4.IsWhole) (arg5 : Memref sig .tc .vmem S256x1024 .f32) (harg5 : arg5.IsWhole) (arg6 : Memref sig .tc .vmem S256x4096 .f32) (harg6 : arg6.IsWhole)
    (x0 : Vec F S1x256x1024 .bf16) (x1 : Vec F S1x4096x1024 .bf16) (xt0 : TbBuf0 (F := F) c tbM0_0) :
    out0_A_2 c i arg3 harg3 arg4 harg4 arg5 harg5 arg6 harg6 x0 x1 xt0 = k0_pay3 (xt0 (ValueIdx.ix1 (i 0))) x0 x1 := by
  unfold out0_A_2
  rw [View.read_writes_eq_canon _ _ _ (cover0_A_2 c i arg3 harg3 arg4 harg4 arg5 harg5 arg6 harg6 x0 x1 xt0)]
  unfold kernelRun0_A
  dsimp only
  rw [View.canon_unit_zero hz2]
  refine congr (congr (congrArg k0_pay3 (lenWord c i xt0 _)) ?_) ?_
  · rw [View.readAt_eq_ld, harg3.read_unread, View.ld_unit_zero (S := S1x256x1024) hz3]
  · rw [View.readAt_eq_ld, harg4.read_unread, View.ld_unit_zero (S := S1x4096x1024) hz3]

end Cert.KernelIdeal.KPieces

end
-- ==== Proof.LibERealBatchNorm.lean ====
/- Extended-real arithmetic on real-valued data, and the identity between the two spellings of the
   variance of a finite family: the mean of the squares minus the square of the mean, and the mean of the
   squared deviations. Both are stated for families every entry of which is a real number; at an infinity
   the two spellings differ. -/
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Analysis.SpecialFunctions.Pow.Real
import Mathlib.Tactic.Ring
import Mathlib.Tactic.FieldSimp
import Mathlib.Tactic.Positivity
import Mathlib.Tactic.Linarith

noncomputable section

namespace Cert.ERealBN

open Idealize.ShloMosaic
open scoped BigOperators

/-- An extended real that is a real number. -/
def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- The sum of real numbers, read in the extended reals, is the real sum. -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih (fun i hi => h i (Finset.mem_insert_of_mem hi)))

theorem IsReal.div_coe {x : EReal} (hx : IsReal x) {r : ℝ} (hr : r ≠ 0) : IsReal (Ideal.div x (r : EReal)) := by
  rw [Ideal.div_coe hr x]
  exact IsReal.mul hx (IsReal.coe _)

theorem IsReal.rsqrt_of_pos {x : EReal} (hx : IsReal x) (hpos : 0 < x) : IsReal (Ideal.rsqrt x) := by
  obtain ⟨r, rfl⟩ := hx
  have hr : 0 < r := by exact_mod_cast hpos
  rw [Ideal.rsqrt_coe, if_neg (not_lt.mpr hr.le), if_neg hr.ne']
  exact ⟨_, rfl⟩

/-! The float constants the programs spell, as the extended reals their patterns denote. -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_1e5 : Ideal.ofBits .f32 0x47C35000#32 = ((100000 : ℝ) : EReal) := by
  simp [Ideal.ofBits, Ideal.ieee, -EReal.coe_mul]; norm_num

/-- The batch-normalisation epsilon is a positive real (the dyadic `10995116 · 2⁻⁴⁰`, about `1e-5`). -/
theorem ofBits_eps_pos : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

/-! The variance law. -/

/-- Division of a real sum by a nonzero real, in the reals. -/
private theorem div_sum_coe {ι : Type*} [Fintype ι] (f : ι → ℝ) {N : ℝ} (hN : N ≠ 0) :
    Ideal.div (∑ i, ((f i : ℝ) : EReal)) (N : EReal) = (((∑ i, f i) * (1 / N) : ℝ) : EReal) := by
  rw [Ideal.div_coe hN, coe_sum, ← EReal.coe_mul]

/-- The sum of squared deviations from `m`, expanded. -/
private theorem sum_dev_sq {ι : Type*} [Fintype ι] (f : ι → ℝ) (m : ℝ) :
    ∑ i, (f i - m) * (f i - m)
      = ∑ i, f i * f i - 2 * m * ∑ i, f i + (Fintype.card ι : ℝ) * (m * m) := by
  have h : ∀ i, (f i - m) * (f i - m) = f i * f i - 2 * m * f i + m * m := fun i => by ring
  simp_rw [h, Finset.sum_add_distrib, Finset.sum_sub_distrib, ← Finset.mul_sum, Finset.sum_const,
    Finset.card_univ, nsmul_eq_mul]
  ring

/-- The deviations' side, in the reals. -/
private theorem dev_coe {ι : Type*} [Fintype ι] (f : ι → ℝ) {N : ℝ} (hN : N ≠ 0) :
    Ideal.div (∑ i, (((f i : ℝ) : EReal) - Ideal.div (∑ i, ((f i : ℝ) : EReal)) (N : EReal))
        * (((f i : ℝ) : EReal) - Ideal.div (∑ i, ((f i : ℝ) : EReal)) (N : EReal))) (N : EReal)
      = (((∑ i, (f i - (∑ i, f i) * (1 / N)) * (f i - (∑ i, f i) * (1 / N))) * (1 / N) : ℝ) : EReal) := by
  rw [div_sum_coe f hN]
  simp_rw [← EReal.coe_sub, ← EReal.coe_mul]
  rw [div_sum_coe _ hN]

theorem var_eq {ι : Type*} [Fintype ι] (c : ι → EReal) (hc : ∀ i, IsReal (c i)) (N : ℝ) (hN : (Fintype.card ι : ℝ) = N) (hpos : 0 < N) :
    Ideal.div (∑ i, c i * c i) (N : EReal) - Ideal.div (∑ i, c i) (N : EReal) * Ideal.div (∑ i, c i) (N : EReal)
      = Ideal.div (∑ i, (c i - Ideal.div (∑ i, c i) (N : EReal)) * (c i - Ideal.div (∑ i, c i) (N : EReal))) (N : EReal) := by
  choose f hf using hc
  obtain rfl : c = fun i => ((f i : ℝ) : EReal) := funext hf
  have hN0 : N ≠ 0 := hpos.ne'
  rw [dev_coe f hN0, div_sum_coe f hN0]
  simp_rw [← EReal.coe_mul]
  rw [div_sum_coe _ hN0, ← EReal.coe_sub, sum_dev_sq, hN]
  congr 1
  field_simp
  ring

theorem var_isReal_nonneg {ι : Type*} [Fintype ι] (c : ι → EReal) (hc : ∀ i, IsReal (c i)) (N : ℝ) (hpos : 0 < N) :
    IsReal (Ideal.div (∑ i, (c i - Ideal.div (∑ i, c i) (N : EReal)) * (c i - Ideal.div (∑ i, c i) (N : EReal))) (N : EReal))
    ∧ 0 ≤ Ideal.div (∑ i, (c i - Ideal.div (∑ i, c i) (N : EReal)) * (c i - Ideal.div (∑ i, c i) (N : EReal))) (N : EReal) := by
  choose f hf using hc
  obtain rfl : c = fun i => ((f i : ℝ) : EReal) := funext hf
  rw [dev_coe f hpos.ne']
  refine ⟨IsReal.coe _, ?_⟩
  rw [EReal.coe_nonneg]
  exact mul_nonneg (Finset.sum_nonneg (fun i _ => mul_self_nonneg _)) (by positivity)

theorem rsqrt_var_isReal {v e : EReal} (hv : IsReal v) (hv0 : 0 ≤ v) (he : IsReal e) (he0 : 0 < e) : IsReal (Ideal.rsqrt (v + e)) := by
  obtain ⟨a, rfl⟩ := hv
  obtain ⟨b, rfl⟩ := he
  have ha : 0 ≤ a := by exact_mod_cast hv0
  have hb : 0 < b := by exact_mod_cast he0
  rw [← EReal.coe_add]
  refine IsReal.rsqrt_of_pos (IsReal.coe _) ?_
  exact_mod_cast (by linarith : 0 < a + b)

end Cert.ERealBN

end
-- ==== Proof.Attn.lean ====
/- Masked dot-product attention over the extended reals, as functions of the three argument arrays read
   index by index: queries `X[b, t, d]`, context `C[b, s, d]`, and per-batch lengths `len[b]` (signed words).
   A position `s` of batch `b` takes part when `s < len[b]`; the others are set to `-∞` before the row-wise
   softmax, and the attended context is the probabilities times the context rows.  The laws stated here are
   the pure mathematics the two programs' spellings differ by. -/
import Idealize.ShloMosaic.PureOps.Ideal
import Idealize.ShloMosaic.Lib.ValueIdx
import proofs.«430075_j74148315398602_3_alg».proof.Proof.LibERealBatchNorm

noncomputable section

namespace Cert.Attn

open Idealize.ShloMosaic Idealize.ShloMosaic.ValueIdx Cert.ERealBN
open scoped BigOperators

abbrev SQ : Shape := ⟨3, ![32, 1024, 1024]⟩
abbrev SC : Shape := ⟨3, ![32, 4096, 1024]⟩
abbrev SLen : Shape := ⟨1, ![32]⟩
abbrev SOutC : Shape := ⟨3, ![1024, 32, 1024]⟩
abbrev SOutA : Shape := ⟨3, ![1024, 32, 4096]⟩

/-- The bit "position `s` is inside a sequence of length `len`": `s < len` on signed 32-bit words. -/
def inSeq (len : BitVec 32) (s : Fin 4096) : BitVec 1 := IntOp.cmpi .slt (BitVec.ofNat 32 s.val) len

/-- The raw score of query row `t` against context row `s` in batch `b`: their inner product over `d`. -/
def score (X : SQ.Idx → EReal) (C : SC.Idx → EReal) (b : Fin 32) (t : Fin 1024) (s : Fin 4096) : EReal :=
  ∑ d : Fin 1024, X (ix3 b t d) * C (ix3 b s d)

/-- A row with the positions outside the sequence at `-∞`. -/
def maskRow (len : BitVec 32) (x : Fin 4096 → EReal) (s : Fin 4096) : EReal :=
  Scalar.select (inSeq len s) (x s) ⊥

/-- The maximum of a row (from `-∞`). -/
def rowMax (x : Fin 4096 → EReal) : EReal := (Finset.univ : Finset (Fin 4096)).fold max ⊥ x

/-- The row shifted by its maximum and exponentiated. -/
def rowExp (x : Fin 4096 → EReal) (s : Fin 4096) : EReal := Ideal.exp (x s - rowMax x)

/-- The normaliser of a row's softmax. -/
def rowSum (x : Fin 4096 → EReal) : EReal := ∑ s : Fin 4096, rowExp x s

/-- Softmax of a row, as a quotient. -/
def softmax (x : Fin 4096 → EReal) (s : Fin 4096) : EReal := Ideal.div (rowExp x s) (rowSum x)

/-- The same probabilities spelt as a product with the reciprocal of the normaliser, the positions outside the
    sequence set to zero afterwards. -/
def softmaxRecip (len : BitVec 32) (x : Fin 4096 → EReal) (s : Fin 4096) : EReal :=
  Scalar.select (inSeq len s) (rowExp x s * Ideal.div 1 (rowSum x)) 0

/-- The attention probability of position `s` for query row `t` of batch `b`. -/
def alignAt (X : SQ.Idx → EReal) (C : SC.Idx → EReal) (len : SLen.Idx → BitVec 32) (b : Fin 32) (t : Fin 1024) (s : Fin 4096) : EReal :=
  softmax (maskRow (len (ix1 b)) (score X C b t)) s

/-- The attended context of query row `t` of batch `b` at feature `d`. -/
def ctxAt (X : SQ.Idx → EReal) (C : SC.Idx → EReal) (len : SLen.Idx → BitVec 32) (b : Fin 32) (t : Fin 1024) (d : Fin 1024) : EReal :=
  ∑ s : Fin 4096, alignAt X C len b t s * C (ix3 b s d)

/-- The probabilities laid out `[t, b, s]`. -/
def alignOut (X : SQ.Idx → EReal) (C : SC.Idx → EReal) (len : SLen.Idx → BitVec 32) : SOutA.Idx → EReal :=
  fun i => alignAt X C len ⟨(i 1).val, (i 1).isLt⟩ ⟨(i 0).val, (i 0).isLt⟩ ⟨(i 2).val, (i 2).isLt⟩

/-- The attended context laid out `[t, b, d]`. -/
def ctxOut (X : SQ.Idx → EReal) (C : SC.Idx → EReal) (len : SLen.Idx → BitVec 32) : SOutC.Idx → EReal :=
  fun i => ctxAt X C len ⟨(i 1).val, (i 1).isLt⟩ ⟨(i 0).val, (i 0).isLt⟩ ⟨(i 2).val, (i 2).isLt⟩

/-! ## The laws -/

/-! ### Extended-real preliminaries -/

/-- The exponential is nonnegative everywhere on the extended reals. -/
theorem idealExp_nonneg (y : EReal) : 0 ≤ Ideal.exp y := by
  induction y using EReal.rec with
  | bot => rw [Ideal.exp_bot]
  | coe r => rw [Ideal.exp_coe]; exact_mod_cast (Real.exp_pos r).le
  | top => rw [Ideal.exp_top]; exact le_top

/-- The exponential is positive off `-∞`. -/
theorem idealExp_pos_of_ne_bot (y : EReal) (hy : y ≠ ⊥) : 0 < Ideal.exp y := by
  induction y using EReal.rec with
  | bot => exact absurd rfl hy
  | coe r => rw [Ideal.exp_coe]; exact_mod_cast Real.exp_pos r
  | top => rw [Ideal.exp_top]; exact EReal.zero_lt_top

/-- Every entry of a masked row of reals is below `+∞`. -/
theorem maskRow_lt_top (len : BitVec 32) (x : Fin 4096 → EReal) (hx : ∀ s, IsReal (x s)) (s : Fin 4096) :
    maskRow len x s < ⊤ := by
  unfold maskRow
  rcases BitVec.eq_zero_or_eq_one (inSeq len s) with h | h
  · rw [h, select_zero]; exact bot_lt_top
  · rw [h, select_one]
    obtain ⟨r, hr⟩ := hx s
    rw [hr]; exact EReal.coe_lt_top r

/-- So the maximum of such a row is below `+∞`. -/
theorem rowMax_maskRow_lt_top (len : BitVec 32) (x : Fin 4096 → EReal) (hx : ∀ s, IsReal (x s)) :
    rowMax (maskRow len x) < ⊤ := by
  unfold rowMax
  exact (Finset.fold_max_lt _).mpr ⟨bot_lt_top, fun s _ => maskRow_lt_top len x hx s⟩

/-- With a nonzero normaliser, multiplying by its reciprocal is dividing by it; and a position outside the sequence
    has `exp (-∞ - max) = 0`, whose quotient is zero as well. -/
theorem softmaxRecip_eq (len : BitVec 32) (x : Fin 4096 → EReal) (h0 : rowSum (maskRow len x) ≠ 0) (s : Fin 4096) :
    softmaxRecip len (maskRow len x) s = softmax (maskRow len x) s := by
  unfold softmaxRecip softmax
  rcases BitVec.eq_zero_or_eq_one (inSeq len s) with h | h
  · -- outside: the masked entry is `-∞`, and `-∞ - m = -∞` whatever `m` is
    have hm : maskRow len x s = ⊥ := by unfold maskRow; rw [h, select_zero]
    have he : rowExp (maskRow len x) s = 0 := by
      unfold rowExp
      rw [hm, sub_eq_add_neg, EReal.bot_add, Ideal.exp_bot]
    rw [h, select_zero, he]
    unfold Ideal.div
    rw [if_neg h0, zero_mul]
  · -- inside: both spellings are the product with the inverse of the normaliser
    rw [h, select_one]
    unfold Ideal.div
    rw [if_neg h0, if_neg h0, one_mul]

/-- A row of real scores with at least one position inside the sequence has a nonzero normaliser: the maximum is a
    real number, so that position contributes a positive real and every other term is nonnegative. -/
theorem rowSum_ne_zero (len : BitVec 32) (x : Fin 4096 → EReal) (hx : ∀ s, IsReal (x s)) (s0 : Fin 4096)
    (h0 : inSeq len s0 = 1#1) : rowSum (maskRow len x) ≠ 0 := by
  -- the term at `s0` is positive
  have hpos : 0 < rowExp (maskRow len x) s0 := by
    unfold rowExp
    apply idealExp_pos_of_ne_bot
    have hm : maskRow len x s0 = x s0 := by unfold maskRow; rw [h0, select_one]
    obtain ⟨r, hr⟩ := hx s0
    rw [hm, hr]
    have hM := rowMax_maskRow_lt_top len x hx
    generalize rowMax (maskRow len x) = M at hM
    induction M using EReal.rec with
    | bot => rw [sub_eq_add_neg, EReal.neg_bot, EReal.coe_add_top]; exact top_ne_bot
    | coe q => rw [← EReal.coe_sub]; exact EReal.coe_ne_bot _
    | top => exact absurd hM (lt_irrefl _)
  -- and it is at most the whole sum, every term of which is nonnegative
  have hle : rowExp (maskRow len x) s0 ≤ rowSum (maskRow len x) := by
    unfold rowSum
    exact Finset.single_le_sum (f := fun s => rowExp (maskRow len x) s)
      (fun s _ => idealExp_nonneg _) (Finset.mem_univ s0)
  exact ne_of_gt (lt_of_lt_of_le hpos hle)

/-- Inner products of real rows are real. -/
theorem score_isReal (X : SQ.Idx → EReal) (C : SC.Idx → EReal) (hX : ∀ i, IsReal (X i)) (hC : ∀ i, IsReal (C i))
    (b : Fin 32) (t : Fin 1024) (s : Fin 4096) : IsReal (score X C b t s) := by
  unfold score
  exact IsReal.sum _ _ (fun d _ => IsReal.mul (hX _) (hC _))

/-! ### Signed words -/

/-- A word that is at least one as a signed word has signed value at least one. -/
theorem one_le_toInt_of_sge (cl : BitVec 32) (h1 : IntOp.cmpi .sge cl 1#32 = 1#1) : 1 ≤ cl.toInt := by
  change BitVec.ofBool ((1#32).sle cl) = 1#1 at h1
  have hb : (1#32).sle cl = true := by
    cases hc : (1#32).sle cl
    · rw [hc] at h1; exact absurd h1 (by decide)
    · rfl
  have := BitVec.sle_iff_toInt_le.mp hb
  rwa [BitVec.toInt_one (by decide)] at this

/-- A position below 4096, as a 32-bit word, has itself as signed value. -/
theorem toInt_ofNat_fin4096 (s : Fin 4096) : (BitVec.ofNat 32 s.val).toInt = (s.val : Int) := by
  have hs := s.isLt
  rw [BitVec.toInt_eq_toNat_of_lt (by rw [BitVec.toNat_ofNat]; omega), BitVec.toNat_ofNat]
  omega

/-- Clipping a length that is at least one into `[1, 4096]` does not change which of the 4096 positions are inside. -/
theorem inSeq_clip (cl : BitVec 32) (h1 : IntOp.cmpi .sge cl 1#32 = 1#1) (s : Fin 4096) :
    inSeq (IntOp.minsi 4096#32 (IntOp.maxsi 1#32 cl)) s = inSeq cl s := by
  have hc := one_le_toInt_of_sge cl h1
  have hs := toInt_ofNat_fin4096 s
  have hlt := s.isLt
  -- the lower clip does nothing
  have hmax : IntOp.maxsi 1#32 cl = cl := by
    unfold IntOp.maxsi
    rw [if_neg]
    intro hcl
    have := BitVec.slt_iff_toInt_lt.mp hcl
    rw [BitVec.toInt_one (by decide)] at this
    omega
  rw [hmax]
  unfold IntOp.minsi
  split
  · -- the length exceeds 4096: every position is below both
    rename_i hbig
    have hbig' := BitVec.slt_iff_toInt_lt.mp hbig
    have h4096 : (4096#32 : BitVec 32).toInt = 4096 := by decide
    rw [h4096] at hbig'
    unfold inSeq IntOp.cmpi
    congr 1
    show (BitVec.ofNat 32 s.val).slt 4096#32 = (BitVec.ofNat 32 s.val).slt cl
    rw [BitVec.slt_eq_decide, BitVec.slt_eq_decide, hs, h4096]
    rw [decide_eq_decide]
    constructor <;> intro _ <;> omega
  · rfl

/-- A length of at least one has position zero inside. -/
theorem inSeq_zero (cl : BitVec 32) (h1 : IntOp.cmpi .sge cl 1#32 = 1#1) : inSeq cl (0 : Fin 4096) = 1#1 := by
  have hc := one_le_toInt_of_sge cl h1
  have hs := toInt_ofNat_fin4096 (0 : Fin 4096)
  unfold inSeq IntOp.cmpi
  show BitVec.ofBool ((BitVec.ofNat 32 (0 : Fin 4096).val).slt cl) = 1#1
  have hb : (BitVec.ofNat 32 (0 : Fin 4096).val).slt cl = true := by
    apply BitVec.slt_iff_toInt_lt.mpr
    rw [hs]
    have : ((0 : Fin 4096).val : Int) = 0 := rfl
    omega
  rw [hb]; rfl

end Cert.Attn

end
-- ==== Proof.KPayload.lean ====
/- The kernel body's two stored values at one grid point, read index by index, as functions of the length word and the
   two loaded blocks: the probabilities in the reciprocal spelling, and their product with the context block. -/
import proofs.«430075_j74148315398602_3_alg».proof.Proof.Gen.KernelIdeal.Skeleton
import proofs.«430075_j74148315398602_3_alg».proof.Proof.Attn
import Idealize.ShloMosaic.PureOps.Ideal.Laws
import Idealize.ShloMosaic.Lib.Pipeline.Value
import Idealize.ShloMosaic.Lib.ValueLayout

noncomputable section

namespace Cert.KPayload

open Idealize.ShloMosaic Idealize.ShloMosaic.ValueIdx Cert.KernelIdeal Cert.KernelIdeal.Gen Cert.Attn
open scoped BigOperators

/-- The scores of the block's query row `t` against the context block's rows. -/
def blkScore (q : Vec Ideal S1x256x1024 .bf16) (cx : Vec Ideal S1x4096x1024 .bf16) (t : Fin 256) (s : Fin 4096) : EReal :=
  ∑ d : Fin 1024, q (ix3 0 t d) * cx (ix3 0 s d)

/-! ## The constants' values -/

/-- The named large negative constant is `-∞`. -/
theorem negBig_eq : Named.named (F := Ideal) Cert.KernelIdeal.κ "neg_big" (φ := .f32) 0xF149F2CA#32 = (⊥ : EReal) := rfl

/-- The word of `-∞`. -/
theorem ofBits_negInf : Ideal.ofBits .f32 0xFF800000#32 = (⊥ : EReal) := by simp [Ideal.ofBits, Ideal.ieee]

/-- The word of `1`. -/
theorem ofBits_one : Ideal.ofBits .f32 0x3F800000#32 = (1 : EReal) := by
  simp [Ideal.ofBits, Ideal.ieee, -EReal.coe_mul]; norm_num

/-! ## Layout: a column of row values -/

/-- Row `t` with position `k` put back on the reduced axis is `(t, k)`. -/
theorem lift_row (h : S256x4096.Reduces [1] S256) (t : Fin 256) (k : Fin (S256x4096.size 1)) :
    h.lift (ix1 t) k = ix2 t (⟨k.val, k.isLt⟩ : Fin 4096) := by
  funext c; apply Fin.ext
  fin_cases c <;> rfl

/-- An `[a]` array cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The first product: the scores -/

theorem lhs_score_0 (i : S256x4096.Idx) (k : dot_S256x1024_S4096x1024_S256x4096_1_1_0_0_n_n.contr.Idx) :
    (dot_S256x1024_S4096x1024_S256x4096_1_1_0_0_n_n.lhsIdx i k 0).val = (i 0).val := by
  unfold DotDims.lhsIdx
  rw [dif_neg (show ¬(0 : Fin S256x1024.rank) ∈ dot_S256x1024_S4096x1024_S256x4096_1_1_0_0_n_n.lhsBatch by decide), dif_pos (show (0 : Fin S256x1024.rank) ∈ dot_S256x1024_S4096x1024_S256x4096_1_1_0_0_n_n.lhsNonContracting by decide)]
  rfl
theorem lhs_score_1 (i : S256x4096.Idx) (k : dot_S256x1024_S4096x1024_S256x4096_1_1_0_0_n_n.contr.Idx) :
    (dot_S256x1024_S4096x1024_S256x4096_1_1_0_0_n_n.lhsIdx i k 1).val = (k ⟨0, by decide⟩).val :=
  dot_S256x1024_S4096x1024_S256x4096_1_1_0_0_n_n.lhsIdx_val_of_single rfl i k
theorem rhs_score_0 (i : S256x4096.Idx) (k : dot_S256x1024_S4096x1024_S256x4096_1_1_0_0_n_n.contr.Idx) :
    (dot_S256x1024_S4096x1024_S256x4096_1_1_0_0_n_n.rhsIdx i k 0).val = (i 1).val := by
  unfold DotDims.rhsIdx
  rw [dif_neg (show ¬(0 : Fin S4096x1024.rank) ∈ dot_S256x1024_S4096x1024_S256x4096_1_1_0_0_n_n.rhsBatch by decide), dif_pos (show (0 : Fin S4096x1024.rank) ∈ dot_S256x1024_S4096x1024_S256x4096_1_1_0_0_n_n.rhsNonContracting by decide)]
  rfl
theorem rhs_score_1 (i : S256x4096.Idx) (k : dot_S256x1024_S4096x1024_S256x4096_1_1_0_0_n_n.contr.Idx) :
    (dot_S256x1024_S4096x1024_S256x4096_1_1_0_0_n_n.rhsIdx i k 1).val = (k ⟨0, by decide⟩).val :=
  dot_S256x1024_S4096x1024_S256x4096_1_1_0_0_n_n.rhsIdx_val_of_single rfl i k

/-- The first product at `(t, s)`: the score of query row `t` against context row `s`. -/
theorem score_read (q : Vec Ideal S1x256x1024 .bf16) (cx : Vec Ideal S1x4096x1024 .bf16) (t : Fin 256) (s : Fin 4096) :
    matmul (F := Ideal) (φ₁ := .bf16) (φ₂ := .bf16) dot_S256x1024_S4096x1024_S256x4096_1_1_0_0_n_n none
      (shapeCast S256x1024 (q : FVec Ideal S1x256x1024 .bf16) shapeCasts_S1x256x1024_S256x1024)
      (k0_pay1 (F := Ideal) cx) (constant S256x4096 .f32 0x00000000#32) (ix2 t s) = blkScore q cx t s := by
  unfold blkScore
  refine (Ideal.matmul_constant_zero_apply dot_S256x1024_S4096x1024_S256x4096_1_1_0_0_n_n none _ _ (ix2 t s)).trans ?_
  rw [← Equiv.sum_comp (ValueIdx.contrEquiv1 dot_S256x1024_S4096x1024_S256x4096_1_1_0_0_n_n 1024 rfl rfl).symm]
  refine Finset.sum_congr rfl fun k _ => ?_
  have hk := ValueIdx.contrEquiv1_symm_val dot_S256x1024_S4096x1024_S256x4096_1_1_0_0_n_n 1024 rfl rfl k
  have el : dot_S256x1024_S4096x1024_S256x4096_1_1_0_0_n_n.lhsIdx (ix2 t s) ((ValueIdx.contrEquiv1 dot_S256x1024_S4096x1024_S256x4096_1_1_0_0_n_n 1024 rfl rfl).symm k) = ix2 t k := funext fun a => Fin.ext (by
    match a with
    | ⟨0, _⟩ => exact lhs_score_0 _ _
    | ⟨1, _⟩ => exact (lhs_score_1 _ _).trans hk)
  have er : dot_S256x1024_S4096x1024_S256x4096_1_1_0_0_n_n.rhsIdx (ix2 t s) ((ValueIdx.contrEquiv1 dot_S256x1024_S4096x1024_S256x4096_1_1_0_0_n_n 1024 rfl rfl).symm k) = ix2 s k := funext fun a => Fin.ext (by
    match a with
    | ⟨0, _⟩ => exact rhs_score_0 _ _
    | ⟨1, _⟩ => exact (rhs_score_1 _ _).trans hk)
  rw [el, er]
  unfold k0_pay1
  rw [shapeCast_1ab_ab_apply, shapeCast_1ab_ab_apply]

/-! ## The mask -/

/-- The mask bit at `(t, s)`: position `s` is inside the sequence. -/
theorem mask_read (len : BitVec 32) (t : Fin 256) (s : Fin 4096) :
    cmpi .slt (iota .tc S256x4096 32 [1] iota_S256x4096_d1_w32) (broadcast S256x4096 len) (ix2 t s) = inSeq len s := by
  show IntOp.cmpi .slt (iota .tc S256x4096 32 [1] iota_S256x4096_d1_w32 (ix2 t s)) len = _
  rw [iota_single_apply]
  rfl

/-! ## The row reductions -/

/-- The row maximum (from `-∞`) of a block whose row `t` is `x`. -/
theorem rowMax_read (m : FVec Ideal S256x4096 .f32) (h : S256x4096.Reduces [1] S256) (hφ : FKind.Formats .f32)
    (hacc : (0xFF800000#32 : BitVec 32) = FKind.maximumf.neutral .f32 hφ) (t : Fin 256) (x : Fin 4096 → EReal)
    (hm : ∀ s, m (ix2 t s) = x s) :
    multiReduction .maximumf [1] S256 m 0xFF800000#32 h hφ hacc (ix1 t) = rowMax x := by
  refine (Ideal.multiReduction_maximumf_single m _ h hφ hacc (ix1 t)).trans ?_
  have hf : (m ∘ h.lift (ix1 t)) = fun k : Fin 4096 => x k :=
    funext fun k => (congrArg m (lift_row h t k)).trans (hm _)
  have hb : (FloatOps.ofBits .f32 0xFF800000#32 : Ideal .f32) = (⊥ : EReal) := ofBits_negInf
  rw [hb]
  exact congrArg (fun f => Finset.fold max (⊥ : EReal) f (Finset.univ : Finset (Fin 4096))) hf

/-- The row sum of a block whose row `t` is `x`. -/
theorem rowAdd_read (e : FVec Ideal S256x4096 .f32) (h : S256x4096.Reduces [1] S256) (hφ : FKind.Formats .f32)
    (hacc : (0x00000000#32 : BitVec 32) = FKind.add.neutral .f32 hφ) (t : Fin 256) (x : Fin 4096 → EReal)
    (he : ∀ s, e (ix2 t s) = x s) :
    multiReduction .add [1] S256 e 0x00000000#32 h hφ hacc (ix1 t) = ∑ s : Fin 4096, x s := by
  refine (Ideal.multiReduction_add_single e _ h hφ hacc (ix1 t)).trans ?_
  exact Finset.sum_congr rfl fun k _ => (congrArg e (lift_row h t k)).trans (he _)

/-! ## The softmax chain over a block whose row `t` is `x` -/

/-- The shifted exponentials at `(t, s)`. -/
theorem rowExp_read (m : FVec Ideal S256x4096 .f32) (h : S256x4096.Reduces [1] S256) (hφ : FKind.Formats .f32)
    (hmax : (0xFF800000#32 : BitVec 32) = FKind.maximumf.neutral .f32 hφ)
    (hsc : S256.ShapeCasts S256x1) (hbr : S256x1.Broadcasts S256x4096) (t : Fin 256) (s : Fin 4096) (x : Fin 4096 → EReal)
    (hm : ∀ s, m (ix2 t s) = x s) :
    exp (subf m (broadcastTo S256x4096 (shapeCast S256x1 (multiReduction .maximumf [1] S256 m 0xFF800000#32 h hφ hmax) hsc) hbr))
      (ix2 t s) = rowExp x s := by
  show Ideal.exp (m (ix2 t s) - broadcastTo S256x4096 (shapeCast S256x1 (multiReduction .maximumf [1] S256 m 0xFF800000#32 h hφ hmax) hsc) hbr (ix2 t s)) = _
  rw [broadcastTo_a1_ab_apply, shapeCast_a_a1_apply, rowMax_read m h hφ hmax t x hm, hm]
  rfl

/-- The probabilities before the final mask at `(t, s)`: the shifted exponential times the reciprocal of the row's sum. -/
theorem probs_read (m : FVec Ideal S256x4096 .f32) (h : S256x4096.Reduces [1] S256) (hφ : FKind.Formats .f32)
    (hmax : (0xFF800000#32 : BitVec 32) = FKind.maximumf.neutral .f32 hφ)
    (hadd : (0x00000000#32 : BitVec 32) = FKind.add.neutral .f32 hφ)
    (hsc : S256.ShapeCasts S256x1) (hbr : S256x1.Broadcasts S256x4096) (t : Fin 256) (s : Fin 4096) (x : Fin 4096 → EReal)
    (hm : ∀ s, m (ix2 t s) = x s) :
    mulf (exp (subf m (broadcastTo S256x4096 (shapeCast S256x1 (multiReduction .maximumf [1] S256 m 0xFF800000#32 h hφ hmax) hsc) hbr)))
      (broadcastTo S256x4096
        (divf (broadcast S256x1 (FloatOps.ofBits .f32 0x3F800000#32))
          (shapeCast S256x1
            (multiReduction .add [1] S256
              (exp (subf m (broadcastTo S256x4096 (shapeCast S256x1 (multiReduction .maximumf [1] S256 m 0xFF800000#32 h hφ hmax) hsc) hbr)))
              0x00000000#32 h hφ hadd) hsc)) hbr)
      (ix2 t s) = rowExp x s * Ideal.div 1 (rowSum x) := by
  refine (mulf_apply _ _ _).trans ?_
  rw [rowExp_read m h hφ hmax hsc hbr t s x hm, broadcastTo_a1_ab_apply]
  refine congrArg (rowExp x s * ·) ?_
  refine (divf_apply _ _ _).trans ?_
  rw [shapeCast_a_a1_apply, rowAdd_read _ h hφ hadd t (rowExp x) (fun s' => rowExp_read m h hφ hmax hsc hbr t s' x hm)]
  show Ideal.div (Ideal.ofBits .f32 0x3F800000#32) (rowSum x) = _
  rw [ofBits_one]

/-! ## The two stored values -/

/-- The masked scores at `(t, s)`. -/
theorem masked_read (len : BitVec 32) (q : Vec Ideal S1x256x1024 .bf16) (cx : Vec Ideal S1x4096x1024 .bf16) (t : Fin 256) (s : Fin 4096) :
    select (cmpi .slt (iota .tc S256x4096 32 [1] iota_S256x4096_d1_w32) (broadcast S256x4096 len))
      (matmul (F := Ideal) (φ₁ := .bf16) (φ₂ := .bf16) dot_S256x1024_S4096x1024_S256x4096_1_1_0_0_n_n none
        (shapeCast S256x1024 (q : FVec Ideal S1x256x1024 .bf16) shapeCasts_S1x256x1024_S256x1024)
        (k0_pay1 (F := Ideal) cx) (constant S256x4096 .f32 0x00000000#32))
      (broadcast S256x4096 (Named.named (F := Ideal) Cert.KernelIdeal.κ "neg_big" (φ := .f32) 0xF149F2CA#32))
      (ix2 t s) = maskRow len (blkScore q cx t) s := by
  refine (select_apply _ _ _ _).trans ?_
  rw [mask_read, score_read]
  rfl

/-- The probabilities the body stores, at row `t` and position `s`. -/
theorem pay2_apply (len : BitVec 32) (q : Vec Ideal S1x256x1024 .bf16) (cx : Vec Ideal S1x4096x1024 .bf16) (t : Fin 256) (s : Fin 4096) :
    k0_pay2 (F := Ideal) len q cx (ix2 t s) = softmaxRecip len (maskRow len (blkScore q cx t)) s := by
  unfold k0_pay2 softmaxRecip
  refine (select_apply _ _ _ _).trans ?_
  refine (congrArg (fun b => Scalar.select b _ _) (mask_read len t s)).trans ?_
  refine congrArg₂ (Scalar.select (inSeq len s)) ?_ Ideal.ofBits_zero_f32
  exact probs_read _ _ _ _ _ _ _ t s (maskRow len (blkScore q cx t)) (fun s' => masked_read len q cx t s')

/-! ## The second product: the attended context -/

theorem lhs_ctx_0 (i : S256x1024.Idx) (k : dot_S256x4096_S4096x1024_S256x1024_1_0_0_1_n_n.contr.Idx) :
    (dot_S256x4096_S4096x1024_S256x1024_1_0_0_1_n_n.lhsIdx i k 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
theorem lhs_ctx_1 (i : S256x1024.Idx) (k : dot_S256x4096_S4096x1024_S256x1024_1_0_0_1_n_n.contr.Idx) :
    (dot_S256x4096_S4096x1024_S256x1024_1_0_0_1_n_n.lhsIdx i k 1).val = (k ⟨0, by decide⟩).val :=
  dot_S256x4096_S4096x1024_S256x1024_1_0_0_1_n_n.lhsIdx_val_of_single rfl i k
theorem rhs_ctx_0 (i : S256x1024.Idx) (k : dot_S256x4096_S4096x1024_S256x1024_1_0_0_1_n_n.contr.Idx) :
    (dot_S256x4096_S4096x1024_S256x1024_1_0_0_1_n_n.rhsIdx i k 0).val = (k ⟨0, by decide⟩).val :=
  dot_S256x4096_S4096x1024_S256x1024_1_0_0_1_n_n.rhsIdx_val_of_single rfl i k
theorem rhs_ctx_1 (i : S256x1024.Idx) (k : dot_S256x4096_S4096x1024_S256x1024_1_0_0_1_n_n.contr.Idx) :
    (dot_S256x4096_S4096x1024_S256x1024_1_0_0_1_n_n.rhsIdx i k 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- The attended context the body stores, at row `t` and feature `d`. -/
theorem pay3_apply (len : BitVec 32) (q : Vec Ideal S1x256x1024 .bf16) (cx : Vec Ideal S1x4096x1024 .bf16) (t : Fin 256) (d : Fin 1024) :
    k0_pay3 (F := Ideal) len q cx (ix2 t d) = ∑ s : Fin 4096, k0_pay2 (F := Ideal) len q cx (ix2 t s) * cx (ix3 0 s d) := by
  unfold k0_pay3
  refine (Ideal.matmul_constant_zero_apply dot_S256x4096_S4096x1024_S256x1024_1_0_0_1_n_n none _ _ (ix2 t d)).trans ?_
  rw [← Equiv.sum_comp (ValueIdx.contrEquiv1 dot_S256x4096_S4096x1024_S256x1024_1_0_0_1_n_n 4096 rfl rfl).symm]
  refine Finset.sum_congr rfl fun k _ => ?_
  have hk := ValueIdx.contrEquiv1_symm_val dot_S256x4096_S4096x1024_S256x1024_1_0_0_1_n_n 4096 rfl rfl k
  have el : dot_S256x4096_S4096x1024_S256x1024_1_0_0_1_n_n.lhsIdx (ix2 t d) ((ValueIdx.contrEquiv1 dot_S256x4096_S4096x1024_S256x1024_1_0_0_1_n_n 4096 rfl rfl).symm k) = ix2 t k := funext fun a => Fin.ext (by
    match a with
    | ⟨0, _⟩ => exact lhs_ctx_0 _ _
    | ⟨1, _⟩ => exact (lhs_ctx_1 _ _).trans hk)
  have er : dot_S256x4096_S4096x1024_S256x1024_1_0_0_1_n_n.rhsIdx (ix2 t d) ((ValueIdx.contrEquiv1 dot_S256x4096_S4096x1024_S256x1024_1_0_0_1_n_n 4096 rfl rfl).symm k) = ix2 k d := funext fun a => Fin.ext (by
    match a with
    | ⟨0, _⟩ => exact (rhs_ctx_0 _ _).trans hk
    | ⟨1, _⟩ => exact rhs_ctx_1 _ _)
  rw [el, er]
  refine congrArg₂ (· * ·) (truncf_apply _ _ _) ?_
  unfold k0_pay1
  exact shapeCast_1ab_ab_apply _ _ _ _

end Cert.KPayload

end
-- ==== Proof.KPoint.lean ====
/- One grid point of the kernel against the specification: when the point's two loaded blocks are rows
   `256·tt … 256·tt + 255` of batch `b`'s queries and all of batch `b`'s context rows, and its length word is batch `b`'s
   length, the probabilities it stores at `(r, s)` and the attended context at `(r, d)` are the specification's at query
   row `256·tt + r`.  The reciprocal spelling of the softmax meets the quotient spelling because the normaliser is not
   zero: the scores are real numbers and position zero is inside the sequence. -/
import proofs.«430075_j74148315398602_3_alg».proof.Proof.KPayload
import proofs.«430075_j74148315398602_3_alg».proof.Proof.Attn

noncomputable section

namespace Cert.KPoint

open Idealize.ShloMosaic Idealize.ShloMosaic.ValueIdx Cert.KernelIdeal Cert.KernelIdeal.Gen Cert.Attn Cert.KPayload Cert.ERealBN
open scoped BigOperators

/-- Query row `r` of row-block `tt`. -/
abbrev rowOf (tt : Fin 4) (r : Fin 256) : Fin 1024 := ⟨tt.val * 256 + r.val, by have := tt.isLt; have := r.isLt; omega⟩

section
variable (len : BitVec 32) (q : Vec Ideal S1x256x1024 .bf16) (cx : Vec Ideal S1x4096x1024 .bf16)
  (X : SQ.Idx → EReal) (C : SC.Idx → EReal) (L : SLen.Idx → BitVec 32) (b : Fin 32) (tt : Fin 4)
  (hq : ∀ (r : Fin 256) (d : Fin 1024), q (ix3 0 r d) = X (ix3 b (rowOf tt r) d))
  (hc : ∀ (s : Fin 4096) (d : Fin 1024), cx (ix3 0 s d) = C (ix3 b s d))
  (hl : len = L (ix1 b))

include hq hc in
/-- The block's scores are the batch's scores at the global row. -/
theorem blkScore_eq (r : Fin 256) : blkScore q cx r = score X C b (rowOf tt r) := by
  funext s
  unfold blkScore score
  exact Finset.sum_congr rfl fun d _ => by rw [hq r d, hc s d]

include hq hc hl in
/-- The stored probabilities are the specification's. -/
theorem point_align (hX : ∀ i, IsReal (X i)) (hC : ∀ i, IsReal (C i)) (h1 : inSeq len (0 : Fin 4096) = 1#1)
    (r : Fin 256) (s : Fin 4096) :
    k0_pay2 (F := Ideal) len q cx (ix2 r s) = alignAt X C L b (rowOf tt r) s := by
  rw [pay2_apply, blkScore_eq q cx X C b tt hq hc r]
  have h0 : rowSum (maskRow len (score X C b (rowOf tt r))) ≠ 0 :=
    rowSum_ne_zero len _ (fun s' => score_isReal X C hX hC b (rowOf tt r) s') 0 h1
  rw [softmaxRecip_eq len _ h0 s]
  unfold alignAt
  rw [hl]

include hq hc hl in
/-- The stored attended context is the specification's. -/
theorem point_ctx (hX : ∀ i, IsReal (X i)) (hC : ∀ i, IsReal (C i)) (h1 : inSeq len (0 : Fin 4096) = 1#1)
    (r : Fin 256) (d : Fin 1024) :
    k0_pay3 (F := Ideal) len q cx (ix2 r d) = ctxAt X C L b (rowOf tt r) d := by
  rw [pay3_apply]
  unfold ctxAt
  exact Finset.sum_congr rfl fun s _ => by
    rw [point_align len q cx X C L b tt hq hc hl hX hC h1 r s, hc s d]

end

end Cert.KPoint

end
-- ==== Proof.KValue.lean ====
/- The kernel's two result arrays after the whole grid.  Point `t` of the 32 × 4 grid handles batch `t / 4` and
   query rows `256 · (t % 4) …`: it reads those rows of the queries and all of the batch's context rows, and writes
   block `(t % 4, t / 4)` of each flat output — rows `256 · (t % 4) …`, columns `4096 · (t / 4) …` of the probabilities,
   columns `1024 · (t / 4) …` of the attended context.  The blocks tile the outputs, so each output array ends holding
   one function of the argument arrays, index by index. -/
import proofs.«430075_j74148315398602_3_alg».proof.Proof.Gen.KernelIdeal.Frame
import proofs.«430075_j74148315398602_3_alg».proof.Proof.KPieces
import proofs.«430075_j74148315398602_3_alg».proof.Proof.KPoint
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.KValue

open Cert.KernelIdeal Cert.KernelIdeal.Gen Cert.KernelIdeal.KPieces Cert.Attn Cert.KPoint Cert.ERealBN
open Idealize.ShloMosaic.ValueIdx Idealize.ShloMosaic.StableHlo

variable (m : (ℓ : Loc nD τ sig) → Buf (Elt Ideal) ℓ)

/-! ## The grid, decided once -/

/-- Point `t` is batch `t / 4`, row block `t % 4`. -/
theorem coords_val : ∀ t : Fin grid0.N, (grid0.coords t 0).val = t.val / 4 ∧ (grid0.coords t 1).val = t.val % 4 := by
  decide +kernel
/-- The query window's block index at point `t`. -/
theorem index_q : ∀ t : Fin grid0.N, cc0_transform_0 (grid0.coords t) 0 = t.val / 4 ∧ cc0_transform_0 (grid0.coords t) 1 = t.val % 4
    ∧ cc0_transform_0 (grid0.coords t) 2 = 0 := by decide +kernel
/-- The context window's block index at point `t`. -/
theorem index_c : ∀ t : Fin grid0.N, cc0_transform_1 (grid0.coords t) 0 = t.val / 4 ∧ cc0_transform_1 (grid0.coords t) 1 = 0
    ∧ cc0_transform_1 (grid0.coords t) 2 = 0 := by decide +kernel
/-- The attended context's block index at point `t`. -/
theorem index_oc : ∀ t : Fin grid0.N, cc0_transform_2 (grid0.coords t) 0 = t.val % 4 ∧ cc0_transform_2 (grid0.coords t) 1 = t.val / 4 := by
  decide +kernel
/-- The probabilities' block index at point `t`. -/
theorem index_oa : ∀ t : Fin grid0.N, cc0_transform_3 (grid0.coords t) 0 = t.val % 4 ∧ cc0_transform_3 (grid0.coords t) 1 = t.val / 4 := by
  decide +kernel

theorem lt_N (t : Fin grid0.N) : t.val < 128 := lt_of_lt_of_eq t.isLt N_0

/-- The batch of point `t`. -/
abbrev batchOf (t : Fin grid0.N) : Fin 32 := ⟨t.val / 4, by have := lt_N t; omega⟩
/-- The row block of point `t`. -/
abbrev rblkOf (t : Fin grid0.N) : Fin 4 := ⟨t.val % 4, by omega⟩

/-! ## The arrays as the region finds them -/

/-- The queries as the region finds them. -/
abbrev Xq (c : Dev nD) : Vec Ideal S32x1024x1024 .bf16 := V m c main_v0
/-- The context as the region finds it. -/
abbrev Cx (c : Dev nD) : Vec Ideal S32x4096x1024 .bf16 := V m c main_v1
/-- The table of lengths the region runs at. -/
abbrev Lt : IVec S32 32 := tbl m 0

/-! ## The input blocks -/

/-- The query block the body loads at point `t`. -/
abbrev qblk (hO : Ok m) (c : Dev nD) (t : Fin (cfgM m hO).N) : Vec Ideal S1x256x1024 .bf16 := iblk m hO c 0 t
/-- The context block the body loads at point `t`. -/
abbrev cblk (hO : Ok m) (c : Dev nD) (t : Fin (cfgM m hO).N) : Vec Ideal S1x4096x1024 .bf16 := iblk m hO c 1 t

/-- The query block at point `t`: rows `256 · (t % 4) + r` of batch `t / 4`. -/
theorem blk_q (hO : Ok m) (c : Dev nD) (t : Fin (cfgM m hO).N) (r : Fin 256) (d : Fin 1024) :
    qblk m hO c t (ix3 0 r d) = Xq m c (ix3 (batchOf t) (rowOf (rblkOf t) r) d) := by
  unfold qblk iblk
  show V m c main_v0 ((((cfgM m hO).win 0).blk t).view.emb (ix3 0 r d)) = V m c main_v0 _
  refine congrArg (V m c main_v0) (funext fun a => Fin.ext ?_)
  obtain ⟨h0, h1, h2⟩ := index_q t
  match a with
  | ⟨0, _⟩ => show cc0_transform_0 (grid0.coords t) 0 * 1 + 1 * 0 = t.val / 4; rw [h0]; omega
  | ⟨1, _⟩ => show cc0_transform_0 (grid0.coords t) 1 * 256 + 1 * r.val = t.val % 4 * 256 + r.val; rw [h1]; omega
  | ⟨2, _⟩ => show cc0_transform_0 (grid0.coords t) 2 * 1024 + 1 * d.val = d.val; rw [h2]; omega

/-- The context block at point `t`: all rows of batch `t / 4`. -/
theorem blk_c (hO : Ok m) (c : Dev nD) (t : Fin (cfgM m hO).N) (s : Fin 4096) (d : Fin 1024) :
    cblk m hO c t (ix3 0 s d) = Cx m c (ix3 (batchOf t) s d) := by
  unfold cblk iblk
  show V m c main_v1 ((((cfgM m hO).win 1).blk t).view.emb (ix3 0 s d)) = V m c main_v1 _
  refine congrArg (V m c main_v1) (funext fun a => Fin.ext ?_)
  obtain ⟨h0, h1, h2⟩ := index_c t
  match a with
  | ⟨0, _⟩ => show cc0_transform_1 (grid0.coords t) 0 * 1 + 1 * 0 = t.val / 4; rw [h0]; omega
  | ⟨1, _⟩ => show cc0_transform_1 (grid0.coords t) 1 * 4096 + 1 * s.val = s.val; rw [h1]; omega
  | ⟨2, _⟩ => show cc0_transform_1 (grid0.coords t) 2 * 1024 + 1 * d.val = d.val; rw [h2]; omega

/-- The length word the body loads at point `t` is the batch's entry of the table. -/
theorem len_at (t : Fin grid0.N) : tbl m 0 (ix1 (grid0.coords t 0)) = Lt m (ix1 (batchOf t)) :=
  congrArg (tbl m 0) (funext fun a => Fin.ext (by match a with | ⟨0, _⟩ => exact (coords_val t).1))

/-! ## What the body leaves at a point -/

/-- The probabilities' staging buffer after the body at point `t`. -/
theorem after_align (hO : Ok m) (c : Dev nD) (t : Fin (cfgM m hO).N) :
    (dats m hO 0 c).after 3 t = k0_pay2 (F := Ideal) (tbl m 0 (ix1 (grid0.coords t 0))) (qblk m hO c t) (cblk m hO c t) := by
  rw [after0_3]
  unfold outsAt0
  dsimp only
  exact out_align (F := Ideal) c (grid0.coords t) (ms0_0 m hO t) (hs0_0 m hO t) (ms0_1 m hO t) (hs0_1 m hO t) (ms0_2 m hO t) (hs0_2 m hO t) (ms0_3 m hO t) (hs0_3 m hO t) (qblk m hO c t) (cblk m hO c t) (tbl m 0)

/-- The attended context's staging buffer after the body at point `t`. -/
theorem after_ctx (hO : Ok m) (c : Dev nD) (t : Fin (cfgM m hO).N) :
    (dats m hO 0 c).after 2 t = k0_pay3 (F := Ideal) (tbl m 0 (ix1 (grid0.coords t 0))) (qblk m hO c t) (cblk m hO c t) := by
  rw [after0_2]
  unfold outsAt0
  dsimp only
  exact out_ctx (F := Ideal) c (grid0.coords t) (ms0_0 m hO t) (hs0_0 m hO t) (ms0_1 m hO t) (hs0_1 m hO t) (ms0_2 m hO t) (hs0_2 m hO t) (ms0_3 m hO t) (hs0_3 m hO t) (qblk m hO c t) (cblk m hO c t) (tbl m 0)

/-! ## What each point writes back -/

/-- The probabilities as the flat `[1024, 32 · 4096]` array the region writes: row `t`, column `4096 · b + s`. -/
def flatAlign (c : Dev nD) : Buf (Elt Ideal) ((c : Thread nD τ).loc main_v3_1) := fun j : S1024x131072.Idx =>
  alignAt (Xq m c) (Cx m c) (Lt m) ⟨(j 1).val / 4096, by have := idx2_lt1 j; omega⟩ ⟨(j 0).val, idx2_lt0 j⟩
    ⟨(j 1).val % 4096, by omega⟩

/-- The attended context as the flat `[1024, 32 · 1024]` array the region writes: row `t`, column `1024 · b + d`. -/
def flatCtx (c : Dev nD) : Buf (Elt Ideal) ((c : Thread nD τ).loc main_v3_0) := fun j : S1024x32768.Idx =>
  ctxAt (Xq m c) (Cx m c) (Lt m) ⟨(j 1).val / 1024, by have := idx2_lt1 j; omega⟩ ⟨(j 0).val, idx2_lt0 j⟩
    ⟨(j 1).val % 1024, by omega⟩

/-- The flat probabilities at row `T`, column `4096 · b + s`. -/
theorem flatAlign_at (c : Dev nD) (j : S1024x131072.Idx) (b : Fin 32) (T : Fin 1024) (s : Fin 4096)
    (h0 : (j 0).val = T.val) (h1 : (j 1).val = b.val * 4096 + s.val) :
    flatAlign m c j = alignAt (Xq m c) (Cx m c) (Lt m) b T s := by
  unfold flatAlign
  have hs := s.isLt
  refine congr (congr (congrArg (alignAt (Xq m c) (Cx m c) (Lt m)) (Fin.ext ?_)) (Fin.ext ?_)) (Fin.ext ?_)
  · show (j 1).val / 4096 = b.val; omega
  · exact h0
  · show (j 1).val % 4096 = s.val; omega

/-- The flat attended context at row `T`, column `1024 · b + d`. -/
theorem flatCtx_at (c : Dev nD) (j : S1024x32768.Idx) (b : Fin 32) (T : Fin 1024) (d : Fin 1024)
    (h0 : (j 0).val = T.val) (h1 : (j 1).val = b.val * 1024 + d.val) :
    flatCtx m c j = ctxAt (Xq m c) (Cx m c) (Lt m) b T d := by
  unfold flatCtx
  have hd := d.isLt
  refine congr (congr (congrArg (ctxAt (Xq m c) (Cx m c) (Lt m)) (Fin.ext ?_)) (Fin.ext ?_)) (Fin.ext ?_)
  · show (j 1).val / 1024 = b.val; omega
  · exact h0
  · show (j 1).val % 1024 = d.val; omega

/-- Where element `y` of the probabilities' block at point `t` sits in the flat array. -/
def embAlign (hO : Ok m) (t : Fin (cfgM m hO).N) (y : S256x4096.Idx) : S1024x131072.Idx := (((cfgM m hO).win 3).blk t).view.emb y
/-- Where element `y` of the attended context's block at point `t` sits in the flat array. -/
def embCtx (hO : Ok m) (t : Fin (cfgM m hO).N) (y : S256x1024.Idx) : S1024x32768.Idx := (((cfgM m hO).win 2).blk t).view.emb y

theorem embAlign_val (hO : Ok m) (t : Fin (cfgM m hO).N) (y : S256x4096.Idx) :
    (embAlign m hO t y 0).val = t.val % 4 * 256 + (y 0).val ∧ (embAlign m hO t y 1).val = t.val / 4 * 4096 + (y 1).val := by
  obtain ⟨h0, h1⟩ := index_oa t
  constructor
  · show cc0_transform_3 (grid0.coords t) 0 * 256 + 1 * (y 0).val = _; rw [h0]; omega
  · show cc0_transform_3 (grid0.coords t) 1 * 4096 + 1 * (y 1).val = _; rw [h1]; omega

theorem embCtx_val (hO : Ok m) (t : Fin (cfgM m hO).N) (y : S256x1024.Idx) :
    (embCtx m hO t y 0).val = t.val % 4 * 256 + (y 0).val ∧ (embCtx m hO t y 1).val = t.val / 4 * 1024 + (y 1).val := by
  obtain ⟨h0, h1⟩ := index_oc t
  constructor
  · show cc0_transform_2 (grid0.coords t) 0 * 256 + 1 * (y 0).val = _; rw [h0]; omega
  · show cc0_transform_2 (grid0.coords t) 1 * 1024 + 1 * (y 1).val = _; rw [h1]; omega

/-- Reading any flat array of the probabilities' shape through point `t`'s block. -/
theorem read_align (hO : Ok m) (c : Dev nD) (t : Fin (cfgM m hO).N) (G : Buf (Elt Ideal) ((c : Thread nD τ).loc main_v3_1)) (y : S256x4096.Idx) :
    (((cfgM m hO).win 3).blk t).view.read (Elt Ideal) G y = G (embAlign m hO t y) := rfl

/-- Reading any flat array of the attended context's shape through point `t`'s block. -/
theorem read_ctx (hO : Ok m) (c : Dev nD) (t : Fin (cfgM m hO).N) (G : Buf (Elt Ideal) ((c : Thread nD τ).loc main_v3_0)) (y : S256x1024.Idx) :
    (((cfgM m hO).win 2).blk t).view.read (Elt Ideal) G y = G (embCtx m hO t y) := rfl

section
variable (hO : Ok m) (c : Dev nD)
  (hX : ∀ i, IsReal (Xq m c i)) (hC : ∀ i, IsReal (Cx m c i)) (hL : ∀ b : Fin 32, inSeq (Lt m (ix1 b)) (0 : Fin 4096) = 1#1)

include hX hC hL in
/-- The probabilities the body stores at point `t`, at `(r, s)`. -/
theorem pay_align (t : Fin (cfgM m hO).N) (r : Fin 256) (s : Fin 4096) :
    k0_pay2 (F := Ideal) (tbl m 0 (ix1 (grid0.coords t 0))) (qblk m hO c t) (cblk m hO c t) (ix2 r s)
      = alignAt (Xq m c) (Cx m c) (Lt m) (batchOf t) (rowOf (rblkOf t) r) s :=
  point_align (tbl m 0 (ix1 (grid0.coords t 0))) (qblk m hO c t) (cblk m hO c t) (Xq m c) (Cx m c) (Lt m) (batchOf t) (rblkOf t)
    (blk_q m hO c t) (blk_c m hO c t) (len_at m t) hX hC ((len_at m t) ▸ hL (batchOf t)) r s

include hX hC hL in
/-- The attended context the body stores at point `t`, at `(r, d)`. -/
theorem pay_ctx (t : Fin (cfgM m hO).N) (r : Fin 256) (d : Fin 1024) :
    k0_pay3 (F := Ideal) (tbl m 0 (ix1 (grid0.coords t 0))) (qblk m hO c t) (cblk m hO c t) (ix2 r d)
      = ctxAt (Xq m c) (Cx m c) (Lt m) (batchOf t) (rowOf (rblkOf t) r) d :=
  point_ctx (tbl m 0 (ix1 (grid0.coords t 0))) (qblk m hO c t) (cblk m hO c t) (Xq m c) (Cx m c) (Lt m) (batchOf t) (rblkOf t)
    (blk_q m hO c t) (blk_c m hO c t) (len_at m t) hX hC ((len_at m t) ▸ hL (batchOf t)) r d

include hX hC hL in
/-- Point `t` writes back its block of the probabilities. -/
theorem flushed_align (t : Fin (cfgM m hO).N) :
    (dats m hO 0 c).flushed 3 t = (((cfgM m hO).win 3).blk t).view.read (Elt Ideal) (flatAlign m c) := by
  refine funext fun (y : S256x4096.Idx) => ?_
  refine Eq.trans ?_ (read_align m hO c t (flatAlign m c) y).symm
  show (dats m hO 0 c).after 3 t (((cfgM m hO).win 3).xinj _ y) = _
  rw [after_align]
  have hy : ((cfgM m hO).win 3).xinj ((cfgM m hO).grid.coords t) y = ix2 (y 0) (y 1) :=
    funext fun a => Fin.ext (by match a with | ⟨0, _⟩ => rfl | ⟨1, _⟩ => rfl)
  rw [hy]
  refine (pay_align m hO c hX hC hL t (y 0) (y 1)).trans ?_
  exact (flatAlign_at m c (embAlign m hO t y) (batchOf t) (rowOf (rblkOf t) (y 0)) (y 1)
    (embAlign_val m hO t y).1 (embAlign_val m hO t y).2).symm

include hX hC hL in
/-- Point `t` writes back its block of the attended context. -/
theorem flushed_ctx (t : Fin (cfgM m hO).N) :
    (dats m hO 0 c).flushed 2 t = (((cfgM m hO).win 2).blk t).view.read (Elt Ideal) (flatCtx m c) := by
  refine funext fun (y : S256x1024.Idx) => ?_
  refine Eq.trans ?_ (read_ctx m hO c t (flatCtx m c) y).symm
  show (dats m hO 0 c).after 2 t (((cfgM m hO).win 2).xinj _ y) = _
  rw [after_ctx]
  have hy : ((cfgM m hO).win 2).xinj ((cfgM m hO).grid.coords t) y = ix2 (y 0) (y 1) :=
    funext fun a => Fin.ext (by match a with | ⟨0, _⟩ => rfl | ⟨1, _⟩ => rfl)
  rw [hy]
  refine (pay_ctx m hO c hX hC hL t (y 0) (y 1)).trans ?_
  exact (flatCtx_at m c (embCtx m hO t y) (batchOf t) (rowOf (rblkOf t) (y 0)) (y 1)
    (embCtx_val m hO t y).1 (embCtx_val m hO t y).2).symm

/-! ## The blocks tile the outputs -/

/-- The point that writes row `i₀`, column `i₁` of the probabilities. -/
def ptAlign (i : S1024x131072.Idx) : Fin grid0.N :=
  ⟨(i 1).val / 4096 * 4 + (i 0).val / 256, by
    rw [N_0]; have h0 : (i 0).val < 1024 := (i 0).isLt; have h1 : (i 1).val < 131072 := (i 1).isLt; omega⟩
/-- The point that writes row `i₀`, column `i₁` of the attended context. -/
def ptCtx (i : S1024x32768.Idx) : Fin grid0.N :=
  ⟨(i 1).val / 1024 * 4 + (i 0).val / 256, by
    rw [N_0]; have h0 : (i 0).val < 1024 := (i 0).isLt; have h1 : (i 1).val < 32768 := (i 1).isLt; omega⟩

theorem in_align (i : S1024x131072.Idx) :
    (cc0_transform_3 (grid0.coords (ptAlign i)) 0 * 256 ≤ (i 0).val ∧ (i 0).val < cc0_transform_3 (grid0.coords (ptAlign i)) 0 * 256 + 256)
    ∧ (cc0_transform_3 (grid0.coords (ptAlign i)) 1 * 4096 ≤ (i 1).val ∧ (i 1).val < cc0_transform_3 (grid0.coords (ptAlign i)) 1 * 4096 + 4096) := by
  obtain ⟨h0, h1⟩ := index_oa (ptAlign i)
  have hi0 : (i 0).val < 1024 := (i 0).isLt
  have hi1 : (i 1).val < 131072 := (i 1).isLt
  rw [h0, h1]
  show (((i 1).val / 4096 * 4 + (i 0).val / 256) % 4 * 256 ≤ _ ∧ _ < ((i 1).val / 4096 * 4 + (i 0).val / 256) % 4 * 256 + 256)
    ∧ (((i 1).val / 4096 * 4 + (i 0).val / 256) / 4 * 4096 ≤ _ ∧ _ < ((i 1).val / 4096 * 4 + (i 0).val / 256) / 4 * 4096 + 4096)
  omega

theorem in_ctx (i : S1024x32768.Idx) :
    (cc0_transform_2 (grid0.coords (ptCtx i)) 0 * 256 ≤ (i 0).val ∧ (i 0).val < cc0_transform_2 (grid0.coords (ptCtx i)) 0 * 256 + 256)
    ∧ (cc0_transform_2 (grid0.coords (ptCtx i)) 1 * 1024 ≤ (i 1).val ∧ (i 1).val < cc0_transform_2 (grid0.coords (ptCtx i)) 1 * 1024 + 1024) := by
  obtain ⟨h0, h1⟩ := index_oc (ptCtx i)
  have hi0 : (i 0).val < 1024 := (i 0).isLt
  have hi1 : (i 1).val < 32768 := (i 1).isLt
  rw [h0, h1]
  show (((i 1).val / 1024 * 4 + (i 0).val / 256) % 4 * 256 ≤ _ ∧ _ < ((i 1).val / 1024 * 4 + (i 0).val / 256) % 4 * 256 + 256)
    ∧ (((i 1).val / 1024 * 4 + (i 0).val / 256) / 4 * 1024 ≤ _ ∧ _ < ((i 1).val / 1024 * 4 + (i 0).val / 256) / 4 * 1024 + 1024)
  omega

theorem inb_align (t : Fin grid0.N) (a : Fin 2) :
    cc0_transform_3 (grid0.coords t) a * S256x4096.size a + S256x4096.size a ≤ S1024x131072.size a := by
  have h := hinb0_3 (grid0.coords t) a
  rw [Nat.add_mul, Nat.one_mul] at h
  exact h

theorem inb_ctx (t : Fin grid0.N) (a : Fin 2) :
    cc0_transform_2 (grid0.coords t) a * S256x1024.size a + S256x1024.size a ≤ S1024x32768.size a := by
  have h := hinb0_2 (grid0.coords t) a
  rw [Nat.add_mul, Nat.one_mul] at h
  exact h

/-- Every element of the probabilities is in some point's block. -/
theorem cover_align (i : ((((cfgM m hO).win 3).arr.view.loc (c.tc : Thread nD τ))).2.ty.Idx) :
    ∃ t : Fin (cfgM m hO).N, ((cfgM m hO).win 3).flush t = true ∧ i ∈ (((cfgM m hO).win 3).blk t).view.set := by
  revert i
  intro (i : S1024x131072.Idx)
  refine ⟨ptAlign i, flush0_3 (adm m hO) _, ?_⟩
  show i ∈ ((View.whole main_v3_1).slice (Rect.unit (s := S1024x131072) (fun a => cc0_transform_3 (grid0.coords (ptAlign i)) a * S256x4096.size a)
    S256x4096.size (inb_align (ptAlign i)))).set
  rw [View.set_slice_whole, Rect.mem_set_unit]
  intro a
  match a with
  | ⟨0, _⟩ => exact (in_align i).1
  | ⟨1, _⟩ => exact (in_align i).2

/-- Every element of the attended context is in some point's block. -/
theorem cover_ctx (i : ((((cfgM m hO).win 2).arr.view.loc (c.tc : Thread nD τ))).2.ty.Idx) :
    ∃ t : Fin (cfgM m hO).N, ((cfgM m hO).win 2).flush t = true ∧ i ∈ (((cfgM m hO).win 2).blk t).view.set := by
  revert i
  intro (i : S1024x32768.Idx)
  refine ⟨ptCtx i, flush0_2 (adm m hO) _, ?_⟩
  show i ∈ ((View.whole main_v3_0).slice (Rect.unit (s := S1024x32768) (fun a => cc0_transform_2 (grid0.coords (ptCtx i)) a * S256x1024.size a)
    S256x1024.size (inb_ctx (ptCtx i)))).set
  rw [View.set_slice_whole, Rect.mem_set_unit]
  intro a
  match a with
  | ⟨0, _⟩ => exact (in_ctx i).1
  | ⟨1, _⟩ => exact (in_ctx i).2

include hX hC hL in
/-- After the grid the probabilities' array holds `flatAlign`. -/
theorem final_align : (dats m hO 0 c).arrAt 3 (cfgM m hO).N = flatAlign m c :=
  (dats m hO 0 c).arrAt_eq_of_cover 3 (flatAlign m c) (fun t _ => flushed_align m hO c hX hC hL t) (cover_align m hO c)

include hX hC hL in
/-- After the grid the attended context's array holds `flatCtx`. -/
theorem final_ctx : (dats m hO 0 c).arrAt 2 (cfgM m hO).N = flatCtx m c :=
  (dats m hO 0 c).arrAt_eq_of_cover 2 (flatCtx m c) (fun t _ => flushed_ctx m hO c hX hC hL t) (cover_ctx m hO c)

end

/-! ## The host operations before the region -/

theorem V_q (c : Dev nD) : (Xq m c : S32x1024x1024.Idx → EReal) = m ((c : Thread nD τ).loc main_arg0) := by
  show (V m c main_v0 : S32x1024x1024.Idx → EReal) = _
  dsimp only [V, V0]
  simp only [hostOps0, hostOps0_1, List.flatten_cons, List.flatten_nil, List.append_nil, List.cons_append, List.nil_append]
  after_results
  rfl

theorem V_c (c : Dev nD) : (Cx m c : S32x4096x1024.Idx → EReal) = m ((c : Thread nD τ).loc main_arg1) := by
  show (V m c main_v1 : S32x4096x1024.Idx → EReal) = _
  dsimp only [V, V0]
  simp only [hostOps0, hostOps0_1, List.flatten_cons, List.flatten_nil, List.append_nil, List.cons_append, List.nil_append]
  after_results
  rfl

theorem V_len (c : Dev nD) : (V m c main_v2 : S32.Idx → BitVec 32)
    = minsi (broadcastInDim S32 ![] bcast_S_S32 (constantI S_ 32 4096#32))
        (maxsi (broadcastInDim S32 ![] bcast_S_S32 (constantI S_ 32 1#32)) (m ((c : Thread nD τ).loc main_arg2))) := by
  dsimp only [V, V0]
  simp only [hostOps0, hostOps0_1, List.flatten_cons, List.flatten_nil, List.append_nil, List.cons_append, List.nil_append]
  after_results
  rfl

/-- The table of lengths the region runs at is the launch lengths clipped to `[1, 4096]`. -/
theorem Lt_apply (c : Dev nD) (b : Fin 32) :
    Lt m (ix1 b) = IntOp.minsi 4096#32 (IntOp.maxsi 1#32 (m ((c : Thread nD τ).loc main_arg2) (ix1 b))) := by
  have h : (Lt m : S32.Idx → BitVec 32) = V m c main_v2 := (V_pre m c 0).symm
  rw [h, V_len]
  rfl

/-! ## The results after the two reshapes -/

/-- Reading the flat probabilities as `[1024, 32, 4096]`. -/
theorem reshape_align (G : S1024x131072.Idx → EReal) (i : S1024x32x4096.Idx) :
    shapeCast S1024x32x4096 G shapeCasts_S1024x131072_S1024x32x4096 i
      = G (ix2 (⟨(i 0).val, (i 0).isLt⟩ : Fin 1024)
          (⟨(i 1).val * 4096 + (i 2).val, by have h1 : (i 1).val < 32 := (i 1).isLt; have h2 : (i 2).val < 4096 := (i 2).isLt; omega⟩ : Fin 131072)) := by
  refine shapeCast_apply G _ i _ ?_
  rw [Shape.rowMajor_val_two, Shape.rowMajor_val_three]
  show (i 0).val * 131072 + ((i 1).val * 4096 + (i 2).val) = ((i 0).val * 32 + (i 1).val) * 4096 + (i 2).val
  omega

/-- Reading the flat attended context as `[1024, 32, 1024]`. -/
theorem reshape_ctx (G : S1024x32768.Idx → EReal) (i : S1024x32x1024.Idx) :
    shapeCast S1024x32x1024 G shapeCasts_S1024x32768_S1024x32x1024 i
      = G (ix2 (⟨(i 0).val, (i 0).isLt⟩ : Fin 1024)
          (⟨(i 1).val * 1024 + (i 2).val, by have h1 : (i 1).val < 32 := (i 1).isLt; have h2 : (i 2).val < 1024 := (i 2).isLt; omega⟩ : Fin 32768)) := by
  refine shapeCast_apply G _ i _ ?_
  rw [Shape.rowMajor_val_two, Shape.rowMajor_val_three]
  show (i 0).val * 32768 + ((i 1).val * 1024 + (i 2).val) = ((i 0).val * 32 + (i 1).val) * 1024 + (i 2).val
  omega

section
variable (hO : Ok m) (c : Dev nD)
  (hX : ∀ i, IsReal (Xq m c i)) (hC : ∀ i, IsReal (Cx m c i)) (hL : ∀ b : Fin 32, inSeq (Lt m (ix1 b)) (0 : Fin 4096) = 1#1)

include hX hC hL in
/-- The probabilities the kernel's program returns. -/
theorem res_align :
    Pipeline.afterTail pcfgs (fun _ => adm m hO) (dats m hO) 0 (V0 m) [hostOps1] c main_v5
      = alignOut (Xq m c) (Cx m c) (Lt m) := by
  unfold Pipeline.afterTail
  show StableHlo.after hostOps1 _ (Proc.devRef .tc main_v5) = _
  after_results
  have hw : Pipeline.withArrays (Pipeline.pin pcfgs (fun _ => adm m hO) 0).spec c (V0 m c)
      (fun w => (dats m hO 0 c).arrAt w (Pipeline.pin pcfgs (fun _ => adm m hO) 0).N) (Proc.devRef .tc main_v3_1) = flatAlign m c :=
    (Pipeline.withArrays_arr spec0 (launch0 (F := Ideal)).win.arr_inj c _ _ 3).trans (final_align m hO c hX hC hL)
  refine funext fun (i : S1024x32x4096.Idx) => ?_
  show shapeCast S1024x32x4096 (Pipeline.withArrays (Pipeline.pin pcfgs (fun _ => adm m hO) 0).spec c (V0 m c)
      (fun w => (dats m hO 0 c).arrAt w (Pipeline.pin pcfgs (fun _ => adm m hO) 0).N) (Proc.devRef .tc main_v3_1)) shapeCasts_S1024x131072_S1024x32x4096 i = _
  rw [hw, reshape_align (flatAlign m c) i]
  unfold alignOut
  exact flatAlign_at m c _ ⟨(i 1).val, (i 1).isLt⟩ ⟨(i 0).val, (i 0).isLt⟩ ⟨(i 2).val, (i 2).isLt⟩ rfl rfl

include hX hC hL in
/-- The attended context the kernel's program returns. -/
theorem res_ctx :
    Pipeline.afterTail pcfgs (fun _ => adm m hO) (dats m hO) 0 (V0 m) [hostOps1] c main_v4
      = ctxOut (Xq m c) (Cx m c) (Lt m) := by
  unfold Pipeline.afterTail
  show StableHlo.after hostOps1 _ (Proc.devRef .tc main_v4) = _
  after_results
  have hw : Pipeline.withArrays (Pipeline.pin pcfgs (fun _ => adm m hO) 0).spec c (V0 m c)
      (fun w => (dats m hO 0 c).arrAt w (Pipeline.pin pcfgs (fun _ => adm m hO) 0).N) (Proc.devRef .tc main_v3_0) = flatCtx m c :=
    (Pipeline.withArrays_arr spec0 (launch0 (F := Ideal)).win.arr_inj c _ _ 2).trans (final_ctx m hO c hX hC hL)
  refine funext fun (i : S1024x32x1024.Idx) => ?_
  show shapeCast S1024x32x1024 (Pipeline.withArrays (Pipeline.pin pcfgs (fun _ => adm m hO) 0).spec c (V0 m c)
      (fun w => (dats m hO 0 c).arrAt w (Pipeline.pin pcfgs (fun _ => adm m hO) 0).N) (Proc.devRef .tc main_v3_0)) shapeCasts_S1024x32768_S1024x32x1024 i = _
  rw [hw, reshape_ctx (flatCtx m c) i]
  unfold ctxOut
  exact flatCtx_at m c _ ⟨(i 1).val, (i 1).isLt⟩ ⟨(i 0).val, (i 0).isLt⟩ ⟨(i 2).val, (i 2).isLt⟩ rfl rfl

end

end Cert.KernelIdeal.KValue

end
-- ==== Proof.RefSpec.lean ====
/- The reference program's two results, read index by index, are the attention probabilities and the attended context
   of `Cert.Attn`, laid out `[t, b, ·]`. -/
import proofs.«430075_j74148315398602_3_alg».proof.Proof.Gen.ReferenceIdeal.Read
import proofs.«430075_j74148315398602_3_alg».proof.Proof.Attn
import Idealize.ShloMosaic.PureOps.Reduce
import Idealize.ShloMosaic.PureOps.Ideal.Laws

noncomputable section

namespace Cert.RefSpec

open Idealize.ShloMosaic Idealize.ShloMosaic.ValueIdx Cert.ReferenceIdeal Cert.ReferenceIdeal.Read Cert.Attn
open scoped BigOperators

section Stages

variable (x0 : (⟨S32x1024x1024, .f32⟩ : BufTy).Contents (Elt Ideal)) (x1 : (⟨S32x4096x1024, .f32⟩ : BufTy).Contents (Elt Ideal))
  (x2 : (⟨S32, .i32⟩ : BufTy).Contents (Elt Ideal))

/-- The pattern of `-∞` is the bottom element. -/
theorem ofBits_negInf : FloatOps.ofBits (F := Ideal) .f32 0xFF800000#32 = (⊥ : EReal) := by
  simp [Ideal.ofBits, Ideal.ieee]

/-- The masked scores: the score where the position is inside the sequence, `-∞` outside. -/
theorem v8_at (b : Fin 32) (t : Fin 1024) (s : Fin 4096) :
    val_main_v8 (F := Ideal) x0 x1 x2 (ix3 b t s) = maskRow (x2 (ix1 b)) (score x0 x1 b t) s := by
  rw [val_main_v8_apply, val_main_call0_v0_apply, val_main_v7_apply, val_main_v6_apply, val_main_v4_apply,
    val_main_v2_apply, val_main_v1_apply, val_main_v5_apply, val_main_v3_apply, val_main_call0_v1_apply,
    val_main_cst_apply, val_main_v0_apply, ofBits_negInf]
  have e3 : idx_main_v3 (idx_main_v5 (idx_main_v7 (idx_main_call0_v0 (ix3 b t s)))) = ix1 b :=
    funext fun a => by match a with | ⟨0, _⟩ => rfl
  have el : ∀ k : Fin 1024, lidx_main_v0 (ix3 b t s) k = ix3 b t k := fun k =>
    funext fun a => by match a with | ⟨0, _⟩ => rfl | ⟨1, _⟩ => rfl | ⟨2, _⟩ => rfl
  have er : ∀ k : Fin 1024, ridx_main_v0 (ix3 b t s) k = ix3 b s k := fun k =>
    funext fun a => by match a with | ⟨0, _⟩ => rfl | ⟨1, _⟩ => rfl | ⟨2, _⟩ => rfl
  rw [e3]
  simp only [el, er]
  rfl

/-- The one-axis reduction's inserted index, by coordinates. -/
theorem lift_at (h : S32x1024x4096.Reduces [2] S32x1024) (b : Fin 32) (t : Fin 1024) (s : Fin 4096) :
    h.lift (ix2 b t) s = ix3 b t s :=
  funext fun a => Fin.ext (by match a with | ⟨0, _⟩ => rfl | ⟨1, _⟩ => rfl | ⟨2, _⟩ => rfl)

/-- The row's running maximum from `-∞`: the maximum of the masked scores over the positions. -/
theorem v9_at (b : Fin 32) (t : Fin 1024) :
    val_main_v9 (F := Ideal) x0 x1 x2 (ix2 b t) = rowMax (maskRow (x2 (ix1 b)) (score x0 x1 b t)) := by
  have h : S32x1024x4096.Reduces [2] S32x1024 := by decide
  unfold val_main_v9
  rw [Host.reduce_eq_fold_single FloatOps.maximumf _ _ Gen.reducesTo_S32x1024x4096_S32x1024_d2 h Gen.h_S_]
  rw [val_main_cst_0_apply, ofBits_negInf]
  have hf : (val_main_v8 (F := Ideal) x0 x1 x2 ∘ h.lift (ix2 b t)) = maskRow (x2 (ix1 b)) (score x0 x1 b t) :=
    funext fun (s : Fin 4096) =>
      (congrArg (val_main_v8 (F := Ideal) x0 x1 x2) (lift_at h b t s)).trans (v8_at x0 x1 x2 b t s)
  rw [hf]
  rfl

/-- The maximum against `-∞` changes nothing. -/
theorem v11_at (b : Fin 32) (t : Fin 1024) :
    val_main_v11 (F := Ideal) x0 x1 x2 (ix2 b t) = rowMax (maskRow (x2 (ix1 b)) (score x0 x1 b t)) := by
  rw [val_main_v11_apply, val_main_v10_apply, val_main_cst_1_apply, ofBits_negInf, v9_at]
  exact max_eq_right bot_le

/-- The shifted, exponentiated masked scores. -/
theorem v15_at (b : Fin 32) (t : Fin 1024) (s : Fin 4096) :
    val_main_v15 (F := Ideal) x0 x1 x2 (ix3 b t s) = rowExp (maskRow (x2 (ix1 b)) (score x0 x1 b t)) s := by
  rw [val_main_v15_apply, val_main_v14_apply, val_main_v13_apply, val_main_v12_apply, v8_at]
  have e : idx_main_v12 (idx_main_v13 (ix3 b t s)) = ix2 b t :=
    funext fun a => by match a with | ⟨0, _⟩ => rfl | ⟨1, _⟩ => rfl
  rw [e, v11_at]
  rfl

/-- The normaliser: zero plus the sum of the exponentials over the positions. -/
theorem v16_at (b : Fin 32) (t : Fin 1024) :
    val_main_v16 (F := Ideal) x0 x1 x2 (ix2 b t) = rowSum (maskRow (x2 (ix1 b)) (score x0 x1 b t)) := by
  rw [val_main_v16_apply, val_main_cst_2_apply, Ideal.ofBits_def, Ideal.ofBits_zero_f32, zero_add]
  refine Finset.sum_congr rfl fun k _ => ?_
  have e : idx_main_v16 (ix2 b t) k = ix3 b t k :=
    funext fun a => by match a with | ⟨0, _⟩ => rfl | ⟨1, _⟩ => rfl | ⟨2, _⟩ => rfl
  rw [e, v15_at]

/-- The probabilities, before the transposition. -/
theorem v19_at (b : Fin 32) (t : Fin 1024) (s : Fin 4096) :
    val_main_v19 (F := Ideal) x0 x1 x2 (ix3 b t s) = alignAt x0 x1 x2 b t s := by
  rw [val_main_v19_apply, val_main_v18_apply, val_main_v17_apply, v15_at]
  have e : idx_main_v17 (idx_main_v18 (ix3 b t s)) = ix2 b t :=
    funext fun a => by match a with | ⟨0, _⟩ => rfl | ⟨1, _⟩ => rfl
  rw [e, v16_at]
  rfl

end Stages

/-- The probabilities the reference returns. -/
theorem ref_align (x0 : (⟨S32x1024x1024, .f32⟩ : BufTy).Contents (Elt Ideal)) (x1 : (⟨S32x4096x1024, .f32⟩ : BufTy).Contents (Elt Ideal))
    (x2 : (⟨S32, .i32⟩ : BufTy).Contents (Elt Ideal)) :
    val_main_v22 (F := Ideal) x0 x1 x2 = alignOut x0 x1 x2 := by
  funext i
  obtain ⟨t, b, s, rfl⟩ : ∃ (t : Fin 1024) (b : Fin 32) (s : Fin 4096), i = ix3 t b s := ⟨i 0, i 1, i 2, eq_ix3 i⟩
  rw [val_main_v22_apply]
  have e : idx_main_v22 (ix3 t b s) = ix3 b t s :=
    funext fun a => by match a with | ⟨0, _⟩ => rfl | ⟨1, _⟩ => rfl | ⟨2, _⟩ => rfl
  rw [e, v19_at]
  rfl

/-- The attended context the reference returns. -/
theorem ref_ctx (x0 : (⟨S32x1024x1024, .f32⟩ : BufTy).Contents (Elt Ideal)) (x1 : (⟨S32x4096x1024, .f32⟩ : BufTy).Contents (Elt Ideal))
    (x2 : (⟨S32, .i32⟩ : BufTy).Contents (Elt Ideal)) :
    val_main_v21 (F := Ideal) x0 x1 x2 = ctxOut x0 x1 x2 := by
  funext i
  obtain ⟨t, b, d, rfl⟩ : ∃ (t : Fin 1024) (b : Fin 32) (d : Fin 1024), i = ix3 t b d := ⟨i 0, i 1, i 2, eq_ix3 i⟩
  rw [val_main_v21_apply, val_main_v20_apply]
  have e : idx_main_v21 (ix3 t b d) = ix3 b t d :=
    funext fun a => by match a with | ⟨0, _⟩ => rfl | ⟨1, _⟩ => rfl | ⟨2, _⟩ => rfl
  rw [e]
  show _ = ctxAt x0 x1 x2 b t d
  unfold ctxAt
  refine Finset.sum_congr rfl fun k _ => ?_
  have el : lidx_main_v20 (ix3 b t d) k = ix3 b t k :=
    funext fun a => by match a with | ⟨0, _⟩ => rfl | ⟨1, _⟩ => rfl | ⟨2, _⟩ => rfl
  have er : ridx_main_v20 (ix3 b t d) k = ix3 b k d :=
    funext fun a => by match a with | ⟨0, _⟩ => rfl | ⟨1, _⟩ => rfl | ⟨2, _⟩ => rfl
  rw [el, er, v19_at]

end Cert.RefSpec

end
-- ==== Proof.PreFacts.lean ====
/- What the precondition says of the three argument arrays: every query and context entry is a real number, and every
   sequence length is at least one (as a signed word). -/
import proofs.«430075_j74148315398602_3_alg».proof.Pre_finite_inputs
import proofs.«430075_j74148315398602_3_alg».proof.Proof.Gen.Pre_finite_inputs
import proofs.«430075_j74148315398602_3_alg».proof.Proof.LibERealBatchNorm
import Idealize.ShloMosaic.PureOps.Ideal
import Idealize.ShloMosaic.Lib.ValueIdx
import Idealize.ShloMosaic.Lib.ReduceAll

noncomputable section

namespace Cert.PreFacts

open Idealize.ShloMosaic Idealize.ShloMosaic.ValueIdx Cert.ERealBN Cert.Pre_finite_inputs

/-- An extended real whose absolute value lies strictly below `⊤` is a real number. -/
theorem isReal_of_abs_lt_top (x : EReal) (hx : Ideal.cmp .olt (max x (-x)) (Ideal.ofBits .f32 0x7F800000#32) = 1#1) :
    IsReal x := by
  have htop : Ideal.ofBits .f32 0x7F800000#32 = (⊤ : EReal) := by simp [Ideal.ofBits, Ideal.ieee]
  rw [htop] at hx
  induction x using EReal.rec with
  | bot => simp [Ideal.cmp] at hx
  | top => simp [Ideal.cmp] at hx
  | coe r => exact ⟨r, rfl⟩

/-- The precondition, all ones, unfolds to: both float arrays are real-valued and every length word is `≥ 1`. -/
theorem of_pre (a0 : FVec Ideal S32x1024x1024 .f32) (a1 : FVec Ideal S32x4096x1024 .f32) (a2 : IVec S32 32)
    (h : Cert.Pre_finite_inputs.fn (F := Ideal) a0 a1 a2 = fun _ => 1#1) :
    (∀ i, IsReal (a0 i)) ∧ (∀ i, IsReal (a1 i)) ∧ (∀ i, IntOp.cmpi .sge (a2 i) 1#32 = 1#1) := by
  -- the result shape has rank zero, so it has exactly one index
  haveI : Subsingleton S_.Idx := ⟨fun a b => funext fun d => d.elim0⟩
  have h0 := congrFun h ValueIdx.ix0
  dsimp only [Cert.Pre_finite_inputs.fn, andi] at h0
  obtain ⟨h01, h2⟩ := IntOp.andi_eq_one.1 h0
  obtain ⟨h0', h1⟩ := IntOp.andi_eq_one.1 h01
  refine ⟨fun i => ?_, fun i => ?_, fun i => ?_⟩
  · have e := Host.reduce_andi_all _ _ _ _ _ h0' i
    exact isReal_of_abs_lt_top _ e
  · have e := Host.reduce_andi_all _ _ _ _ _ h1 i
    exact isReal_of_abs_lt_top _ e
  · exact Host.reduce_andi_all _ _ _ _ _ h2 i

end Cert.PreFacts

end
-- ==== Proof.AttnLen.lean ====
/- The attention functions read the lengths only through the bits "position `s` is inside the sequence": two tables of
   lengths that agree on those bits, position by position, give the same probabilities and the same attended context. -/
import proofs.«430075_j74148315398602_3_alg».proof.Proof.Attn

noncomputable section

namespace Cert.Attn

open Idealize.ShloMosaic Idealize.ShloMosaic.ValueIdx
open scoped BigOperators

theorem maskRow_congr (l l' : BitVec 32) (h : ∀ s, inSeq l s = inSeq l' s) (x : Fin 4096 → EReal) :
    maskRow l x = maskRow l' x :=
  funext fun s => by unfold maskRow; rw [h s]

section
variable (X : SQ.Idx → EReal) (C : SC.Idx → EReal) (L L' : SLen.Idx → BitVec 32)
  (h : ∀ (b : Fin 32) (s : Fin 4096), inSeq (L (ix1 b)) s = inSeq (L' (ix1 b)) s)

include h in
theorem alignAt_congr (b : Fin 32) (t : Fin 1024) (s : Fin 4096) : alignAt X C L b t s = alignAt X C L' b t s := by
  unfold alignAt
  rw [maskRow_congr _ _ (h b)]

include h in
theorem ctxAt_congr (b : Fin 32) (t : Fin 1024) (d : Fin 1024) : ctxAt X C L b t d = ctxAt X C L' b t d := by
  unfold ctxAt
  exact Finset.sum_congr rfl fun s _ => by rw [alignAt_congr X C L L' h b t s]

include h in
theorem alignOut_congr : alignOut X C L = alignOut X C L' :=
  funext fun i => by unfold alignOut; exact alignAt_congr X C L L' h _ _ _

include h in
theorem ctxOut_congr : ctxOut X C L = ctxOut X C L' :=
  funext fun i => by unfold ctxOut; exact ctxAt_congr X C L L' h _ _ _

end

end Cert.Attn

end
-- ==== Proof.lean ====
/- Masked dot-product attention, a tiled kernel against its plain reference, over the extended reals.
   Both programs compute, for every batch `b`, query row `t` and position `s`, the softmax over `s` of the scores
   `∑_d input[b,t,d] · context[b,s,d]` with the positions `s ≥ context_lengths[b]` at `-∞`, and the attended context
   `∑_s probability[b,t,s] · context[b,s,d]`, both returned with the query axis first.  The kernel works on 32 × 4
   blocks (one batch, 256 query rows each), clips the lengths to `[1, 4096]`, fills the masked scores with a constant
   that stands for `-∞`, and normalises by multiplying with the reciprocal of the row sum and zeroing the masked
   positions; the reference divides by the row sum.
   The two agree when every length is at least one (then the clip keeps every position's inside/outside bit, and
   position zero is inside, so a row's normaliser is a positive real and the reciprocal spelling is the quotient) and
   the inputs are real numbers (so the scores and the row maxima are real).  With a length below one the reference's
   row is all `-∞` and its softmax is not a number, which is why the statement asks for lengths `≥ 1`. -/
import proofs.«430075_j74148315398602_3_alg».proof.Defs
import proofs.«430075_j74148315398602_3_alg».proof.Proof.Gen.Kernel
import proofs.«430075_j74148315398602_3_alg».proof.Proof.Gen.Kernel.Skeleton
import proofs.«430075_j74148315398602_3_alg».proof.Proof.Gen.Kernel.Launch
import proofs.«430075_j74148315398602_3_alg».proof.Proof.Gen.Kernel.Points
import proofs.«430075_j74148315398602_3_alg».proof.Proof.Gen.Kernel.Frame
import proofs.«430075_j74148315398602_3_alg».proof.Proof.Gen.KernelIdeal
import proofs.«430075_j74148315398602_3_alg».proof.Proof.Gen.KernelIdeal.Skeleton
import proofs.«430075_j74148315398602_3_alg».proof.Proof.Gen.KernelIdeal.Launch
import proofs.«430075_j74148315398602_3_alg».proof.Proof.Gen.KernelIdeal.Points
import proofs.«430075_j74148315398602_3_alg».proof.Proof.Gen.KernelIdeal.Frame
import proofs.«430075_j74148315398602_3_alg».proof.Proof.Gen.ReferenceIdeal
import proofs.«430075_j74148315398602_3_alg».proof.Proof.Gen.Pre_finite_inputs
import proofs.«430075_j74148315398602_3_alg».proof.Proof.Gen.ReferenceIdeal.Run
import proofs.«430075_j74148315398602_3_alg».proof.Proof.Gen.ReferenceIdeal.Read
import proofs.«430075_j74148315398602_3_alg».proof.Proof.KValue
import proofs.«430075_j74148315398602_3_alg».proof.Proof.RefSpec
import proofs.«430075_j74148315398602_3_alg».proof.Proof.PreFacts
import proofs.«430075_j74148315398602_3_alg».proof.Proof.AttnLen
import Idealize.ShloMosaic.PureOps.IdealRules
import Idealize.ShloMosaic.Adequacy
import Idealize.ShloMosaic.Init

noncomputable section

namespace Cert.Proof

open Idealize.ShloMosaic Idealize.SL.Sem Idealize.ShloMosaic.TcCoe Idealize.ShloMosaic.ValueIdx
open Cert.Attn Cert.ERealBN

/-- No window's block index reads the table of lengths, so the pipeline's condition on the table is empty. -/
theorem ok_k (m : (ℓ : Loc Cert.Kernel.nD Cert.Kernel.τ Cert.Kernel.sig) → Buf (Elt Bits) ℓ) : Cert.Kernel.Gen.Ok m := by
  show Cert.Kernel.ok0 _
  unfold Cert.Kernel.ok0
  trivial

theorem ok_ki (m : (ℓ : Loc Cert.KernelIdeal.nD Cert.KernelIdeal.τ Cert.KernelIdeal.sig) → Buf (Elt Ideal) ℓ) : Cert.KernelIdeal.Gen.Ok m := by
  show Cert.KernelIdeal.ok0 _
  unfold Cert.KernelIdeal.ok0
  trivial

theorem frame_k : Cert.frame_Kernel := fun m ρ _ => Cert.Kernel.Gen.frame m ρ (ok_k m)

theorem frame_ki : Cert.frame_KernelIdeal := fun m ρ _ => Cert.KernelIdeal.Gen.frame m ρ (ok_ki m)

theorem frame_ri : Cert.frame_ReferenceIdeal := fun m ρ _ =>
  (θ_run Cert.ReferenceIdeal.defs _ _).mono (fun _ h c => (h c).2.2) (Cert.ReferenceIdeal.Value.run (F := Ideal) m ρ)

/-- The one rewrite of the idealization: the mask fill `-1e30` is read as `-∞`. -/
theorem preserves : Cert.preserves_Kernel_KernelIdeal :=
  IdealRules.named_const.statement Cert.KernelIdeal.κ "neg_big" .f32 0xF149F2CA#32 ⊥ rfl

open Cert.KernelIdeal Cert.KernelIdeal.Gen Cert.KernelIdeal.KValue in
/-- The kernel's run ends with the specification's two arrays of the launch arguments. -/
theorem kernel_run (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread nD τ).loc main_v4) = ctxOut (m ((c.tc : Thread nD τ).loc main_arg0)) (m ((c.tc : Thread nD τ).loc main_arg1)) (m ((c.tc : Thread nD τ).loc main_arg2))
      ∧ r.2.mem ((c.tc : Thread nD τ).loc main_v5) = alignOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have hO : Ok m := ok_ki m
  refine (θ_run defs _ _).mono (fun r h c => ?_) (run_main m ρ hO)
  obtain ⟨h0, h1, h2⟩ := Cert.PreFacts.of_pre _ _ _ (hpre c)
  have hX : ∀ i, IsReal (Xq m c i) := fun i => by rw [V_q m c]; exact h0 i
  have hC : ∀ i, IsReal (Cx m c i) := fun i => by rw [V_c m c]; exact h1 i
  have hbit : ∀ (b : Fin 32) (s : Fin 4096), inSeq (Lt m (ix1 b)) s = inSeq (m ((c.tc : Thread nD τ).loc main_arg2) (ix1 b)) s := fun b s => by
    rw [Lt_apply m c b]; exact inSeq_clip _ (h2 (ix1 b)) s
  have hL : ∀ b : Fin 32, inSeq (Lt m (ix1 b)) (0 : Fin 4096) = 1#1 := fun b => by
    rw [hbit b 0]; exact inSeq_zero _ (h2 (ix1 b))
  refine ⟨?_, ?_, ?_, ?_, ?_⟩
  · refine (((h c).2 main_v4 (by decide : main_v4 ∈ Pipeline.restRefs sig spec0)).trans (res_ctx m hO c hX hC hL)).trans ?_
    rw [V_q m c, V_c m c]
    exact ctxOut_congr _ _ _ _ hbit
  · refine (((h c).2 main_v5 (by decide : main_v5 ∈ Pipeline.restRefs sig spec0)).trans (res_align m hO c hX hC hL)).trans ?_
    rw [V_q m c, V_c m c]
    exact alignOut_congr _ _ _ _ hbit
  · exact ((h c).2 main_arg0 (by decide : main_arg0 ∈ Pipeline.restRefs sig spec0)).trans (W_main_arg0 m hO (dats m hO) c)
  · exact ((h c).2 main_arg1 (by decide : main_arg1 ∈ Pipeline.restRefs sig spec0)).trans (W_main_arg1 m hO (dats m hO) c)
  · exact ((h c).2 main_arg2 (by decide : main_arg2 ∈ Pipeline.restRefs sig spec0)).trans (W_main_arg2 m hO (dats m hO) c)

/-- The two idealized programs, run from memories that agree on the arguments, end with the same two arrays. -/
theorem algebraic : Cert.algebraic_KernelIdeal_ReferenceIdeal := by
  intro m ρ m' ρ' hpre hagree
  refine ⟨_, _, kernel_run m ρ hpre, ?_⟩
  refine (θ_run Cert.ReferenceIdeal.defs _ _).mono (fun r h c => ?_) (Cert.ReferenceIdeal.Value.run (F := Ideal) m' ρ')
  obtain ⟨h21, h22, ha0, ha1, ha2⟩ := h c
  refine ⟨?_, ?_, ha0, ha1, ha2⟩
  · refine h21.trans ((Cert.ReferenceIdeal.Read.val_main_v21_eq _ _ _).trans ((Cert.RefSpec.ref_ctx _ _ _).trans ?_))
    rw [(hagree c).1, (hagree c).2.1, (hagree c).2.2]
  · refine h22.trans ((Cert.ReferenceIdeal.Read.val_main_v22_eq _ _ _).trans ((Cert.RefSpec.ref_align _ _ _).trans ?_))
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
